-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32x16 : S_.BroadcastsInDim S32x16 (![] : Fin 0 → Fin S32x16.rank)
  reducesTo_S32x16_S_d0_1 : S32x16.ReducesTo [0, 1] S_

variable [Facts]

def fn_part1 {F : FTy → Type} [FloatOps F] (main_arg4 : FVec F S32x16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S32x16 .f32 := Host.absf main_arg4
  let main_cst_6 : FVec F S_ .f32 := constant S_ .f32 0x7F800000#32
  let main_v20 : FVec F S32x16 .f32 := broadcastInDim S32x16 ![] bcast_S_S32x16 main_cst_6
  let main_v21 : IVec S32x16 1 := cmpf .olt main_v19 main_v20
  let main_c_7 : IVec S_ 1 := constantI S_ 1 1#1
  let main_v22 : IVec S_ 1 := (fun x v => Host.reduce IntOp.andi x v reducesTo_S32x16_S_d0_1 h_S_) main_v21 main_c_7
  let main_v23 : IVec S_ 1 := andi main_v18 main_v22
  main_v23

def fn {F : FTy → Type} [FloatOps F] (main_arg0 : FVec F S10000x128 .f32) (main_arg1 : FVec F S10000x10000 .f32) (main_arg2 : FVec F S128x32 .f32) (main_arg3 : FVec F S32x16 .f32) (main_arg4 : FVec F S32x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32x16 .f32 := Host.absf main_arg3
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x16 : Shape := ⟨2, ![10000, 16]⟩
abbrev S400x10000 : Shape := ⟨2, ![400, 10000]⟩
abbrev S400x16 : Shape := ⟨2, ![400, 16]⟩
abbrev S10000x32 : Shape := ⟨2, ![10000, 32]⟩
abbrev S32x32 : Shape := ⟨2, ![32, 32]⟩
abbrev S400x32 : Shape := ⟨2, ![400, 32]⟩

abbrev nBuf : Space → Nat
  | .hbm => 7
  | .vmem => 13
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x16, .f32⟩
  | .hbm, ⟨6, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x32, .f32⟩
  | .local _ .vmem, ⟨4, _⟩ => ⟨S32x16, .f32⟩
  | .local _ .vmem, ⟨5, _⟩ => ⟨S32x16, .f32⟩
  | .local _ .vmem, ⟨6, _⟩ => ⟨S400x16, .f32⟩
  | .local _ .vmem, ⟨7, _⟩ => ⟨S400x16, .f32⟩
  | .local _ .vmem, ⟨8, _⟩ => ⟨S400x16, .f32⟩
  | .local _ .vmem, ⟨9, _⟩ => ⟨S400x16, .f32⟩
  | .local _ .vmem, ⟨10, _⟩ => ⟨S10000x32, .f32⟩
  | .local _ .vmem, ⟨11, _⟩ => ⟨S10000x32, .f32⟩
  | .local _ .vmem, ⟨12, _⟩ => ⟨S32x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c400_i32 : BitVec 32 := 400#32
  let v18 : BitVec 32 := Scalar.muli arg1 c400_i32
  let v19 : Index := Scalar.indexCast v18
  let c0_12 : Index := 0#32
  ![v19.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S400x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x16_S32x16_0_0 : ∀ a, (![0, 0] : Fin 2 → Nat) a + S32x16.size a ≤ S32x16.size a
  h_S32x16 : 0 < S32x16.numel
  inb_S32x32_S32x16_0_0 : ∀ a, (![0, 0] : Fin 2 → Nat) a + S32x16.size a ≤ S32x32.size a
  shapeCasts_S32x16_S32x16 : S32x16.ShapeCasts S32x16
  inb_S32x32_S32x16_0_16 : ∀ a, (![0, 16] : Fin 2 → Nat) a + S32x16.size a ≤ S32x32.size a
  inb_S400x10000_S400x10000_0_0 : ∀ a, (![0, 0] : Fin 2 → Nat) a + S400x10000.size a ≤ S400x10000.size a
  h_S400x10000 : 0 < S400x10000.numel
  inb_S32x32_S32x32_0_0 : ∀ a, (![0, 0] : Fin 2 → Nat) a + S32x32.size a ≤ S32x32.size a
  h_S32x32 : 0 < S32x32.numel
  h_S400x32 : 0 < S400x32.numel
  shapeCasts_S400x32_S400x32 : S400x32.ShapeCasts S400x32
  slices_S400x32_o0_0_S400x16 : S400x32.Slices ![0, 0] S400x16
  inb_S400x16_S400x16_0_0 : ∀ a, (![0, 0] : Fin 2 → Nat) a + S400x16.size a ≤ S400x16.size a
  h_S400x16 : 0 < S400x16.numel
  slices_S400x32_o0_16_S400x16 : S400x32.Slices ![0, 16] S400x16
  dot_S10000x128_S128x32_S10000x32_1_0_0_1_n_n_wf : DotDims.WF S10000x128 S128x32 S10000x32 [1] [0] [0] [1] [] []
  dot_S400x10000_S10000x32_S400x32_1_0_0_1_n_n_wf : DotDims.WF S400x10000 S10000x32 S400x32 [1] [0] [0] [1] [] []
  dot_S400x32_S32x32_S400x32_1_0_0_1_n_n_wf : DotDims.WF S400x32 S32x32 S400x32 [1] [0] [0] [1] [] []
  hrank0 : 0 < grid0.rank
  k0_off1_inb : ∀ i : grid0.Coords, ∀ (k0_h2 : k0_cond2 i = 1#1), ∀ a, (k0_off1 i) a + S400x32.size a ≤ S10000x32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x16.size a ≤ S32x16.size a
  hwx0_3 : ∀ i : grid0.Coords, EltTy.bits .f32 = 32 ∨ (Rect.block (s := S32x16) S32x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x16.size a ≤ S32x16.size a
  hwx0_4 : ∀ i : grid0.Coords, EltTy.bits .f32 = 32 ∨ (Rect.block (s := S32x16) S32x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x16.size a ≤ S10000x16.size a
  hwx0_6 : ∀ i : grid0.Coords, EltTy.bits .f32 = 32 ∨ (Rect.block (s := S10000x16) S400x16.size (cc0_transform_6 i) (hinb0_6 i)).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S400x10000_S10000x32_S400x32_1_0_0_1_n_n : DotDims S400x10000 S10000x32 S400x32 where
  lhsContracting := [1]
  rhsContracting := [0]
  lhsNonContracting := [0]
  rhsNonContracting := [1]
  lhsBatch := []
  rhsBatch := []
  wf := dot_S400x10000_S10000x32_S400x32_1_0_0_1_n_n_wf
def dot_S400x32_S32x32_S400x32_1_0_0_1_n_n : DotDims S400x32 S32x32 S400x32 where
  lhsContracting := [1]
  rhsContracting := [0]
  lhsNonContracting := [0]
  rhsNonContracting := [1]
  lhsBatch := []
  rhsBatch := []
  wf := dot_S400x32_S32x32_S400x32_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S32x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S400x16.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S400x16.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun i => !(k0_cond3 i == 1#1) | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32x16 : Shape := ⟨2, ![32, 16]⟩
abbrev S10000x32 : Shape := ⟨2, ![10000, 32]⟩
abbrev S_ : Shape := ⟨0, ![]⟩
abbrev S10000x16 : Shape := ⟨2, ![10000, 16]⟩

abbrev nBuf : Space → Nat
  | .hbm => 20
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32x16, .f32⟩
  | .hbm, ⟨4, _⟩ => ⟨S32x16, .f32⟩
  | .hbm, ⟨5, _⟩ => ⟨S10000x32, .f32⟩
  | .hbm, ⟨6, _⟩ => ⟨S10000x32, .f32⟩
  | .hbm, ⟨7, _⟩ => ⟨S_, .f32⟩
  | .hbm, ⟨8, _⟩ => ⟨S10000x32, .f32⟩
  | .hbm, ⟨9, _⟩ => ⟨S10000x32, .f32⟩
  | .hbm, ⟨10, _⟩ => ⟨S10000x16, .f32⟩
  | .hbm, ⟨11, _⟩ => ⟨S10000x16, .f32⟩
  | .hbm, ⟨12, _⟩ => ⟨S_, .f32⟩
  | .hbm, ⟨13, _⟩ => ⟨S10000x16, .f32⟩
  | .hbm, ⟨14, _⟩ => ⟨S10000x16, .f32⟩
  | .hbm, ⟨15, _⟩ => ⟨S10000x16, .f32⟩
  | .hbm, ⟨16, _⟩ => ⟨S10000x16, .f32⟩
  | .hbm, ⟨17, _⟩ => ⟨S_, .f32⟩
  | .hbm, ⟨18, _⟩ => ⟨S10000x16, .f32⟩
  | .hbm, ⟨19, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_cst : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_cst : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call2_cst : Ref sig .tc := ⟨.hbm, 17, rfl⟩
abbrev main_call2_v0 : Ref sig .tc := ⟨.hbm, 18, rfl⟩
abbrev main_v8 : Ref sig .tc := ⟨.hbm, 19, rfl⟩

abbrev nD : Nat := 1
abbrev τ : Topo := Topo.v7x

variable {F : FTy → Type} [FloatOps F]

class Facts₀ : Prop where
  bcast_S_S10000x32 : S_.BroadcastsInDim S10000x32 (![] : Fin 0 → Fin S10000x32.rank)
  bcast_S_S10000x16 : S_.BroadcastsInDim S10000x16 (![] : Fin 0 → Fin S10000x16.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []
  dot_S10000x32_S32x16_S10000x16_1_0_0_1_n_n_wf : DotDims.WF S10000x32 S32x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Bits.Slab.lean ====
/-
  The grid of the graph-convolution kernel has 50 points, walked in order: points 0 … 24 are the first pass over the
  adjacency matrix (row block t), points 25 … 49 the second pass (row block t − 25).  The body has three guarded
  parts.  The first part runs at point 0 only: it forms the first support x · W1 and lays W2 and W3 side by side.  The
  second part runs at every point of the first pass: it writes rows 400·t … 400·t + 399 of the second support.  The
  third part runs at every point of the second pass: it writes the two output blocks.  Here these facts are decided
  over the grid once: which guard holds at which point, where the row slab of point t starts, at which points the
  output windows are written back (exactly the points of the second pass) and at which the body leaves them untouched
  (exactly the points of the first pass).  The scratch buffers are named, and the region's standing invariant is
  restated over them.
-/
import proofs.«123737_g71674414235792_cont_9to1c4b_416_14_alg».proof.Proof.Gen.Kernel.Frame
import proofs.«123737_g71674414235792_cont_9to1c4b_416_14_alg».proof.Proof.Gen.Kernel.Skeleton

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three guards, as the body computes them from the grid coordinates -/

/-- The guard of the first part: both coordinates zero. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The guard of the second part: the pass coordinate is zero. -/
abbrev condFill (i : grid0.Coords) : Prop := k0_cond2 i = 1#1
/-- The guard of the third part: the pass coordinate is one. -/
abbrev condEmit (i : grid0.Coords) : Prop := k0_cond3 i = 1#1

theorem first_iff : ∀ t : Fin cfg0.N, condFirst (grid0.coords t) ↔ t.val = 0 :=
  (by decide +kernel : ∀ t : Fin grid0.N, condFirst (grid0.coords t) ↔ t.val = 0)
theorem fill_iff : ∀ t : Fin cfg0.N, condFill (grid0.coords t) ↔ t.val < 25 :=
  (by decide +kernel : ∀ t : Fin grid0.N, condFill (grid0.coords t) ↔ t.val < 25)
theorem emit_iff : ∀ t : Fin cfg0.N, condEmit (grid0.coords t) ↔ 25 ≤ t.val :=
  (by decide +kernel : ∀ t : Fin grid0.N, condEmit (grid0.coords t) ↔ 25 ≤ t.val)

/-- The row slab of point t of the first pass starts at row 400·t, column 0. -/
theorem slab_off : ∀ t : Fin cfg0.N, t.val < 25 → k0_off1 (grid0.coords t) 0 = 400 * t.val ∧ k0_off1 (grid0.coords t) 1 = 0 :=
  (by decide +kernel : ∀ t : Fin grid0.N, t.val < 25 → k0_off1 (grid0.coords t) 0 = 400 * t.val ∧ k0_off1 (grid0.coords t) 1 = 0)

/-! ## Where the windows are live, and where the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The first output window is untouched by the body exactly on the first pass, -/
theorem idle5_eq : ∀ t : Fin cfg0.N, cfg0.idle 5 (grid0.coords t) = decide (t.val < 25) := by decide +kernel
/-- and so is the second. -/
theorem idle6_eq : ∀ t : Fin cfg0.N, cfg0.idle 6 (grid0.coords t) = decide (t.val < 25) := by decide +kernel
/-- The first output window is written back exactly at the points of the second pass, -/
theorem flush5_eq : ∀ t : Fin cfg0.N, (cfg0.win 5).flush t = decide (25 ≤ t.val) :=
  (by decide +kernel : ∀ t : Fin grid0.N, win0_5.flush t = decide (25 ≤ t.val))
/-- and so is the second. -/
theorem flush6_eq : ∀ t : Fin cfg0.N, (cfg0.win 6).flush t = decide (25 ≤ t.val) :=
  (by decide +kernel : ∀ t : Fin grid0.N, win0_6.flush t = decide (25 ≤ t.val))
/-- The output block written back at point t of the second pass is row block t − 25. -/
theorem out_index5 : ∀ t : Fin cfg0.N, 25 ≤ t.val → win0_5.index t 0 = t.val - 25 ∧ win0_5.index t 1 = 0 :=
  (by decide +kernel : ∀ t : Fin grid0.N, 25 ≤ t.val → win0_5.index t 0 = t.val - 25 ∧ win0_5.index t 1 = 0)
theorem out_index6 : ∀ t : Fin cfg0.N, 25 ≤ t.val → win0_6.index t 0 = t.val - 25 ∧ win0_6.index t 1 = 0 :=
  (by decide +kernel : ∀ t : Fin grid0.N, 25 ≤ t.val → win0_6.index t 0 = t.val - 25 ∧ win0_6.index t 1 = 0)
/-- The adjacency block fetched at point t is row block t mod 25; the other inputs are whole arrays. -/
theorem adj_index : ∀ t : Fin cfg0.N, win0_0.index t 0 = t.val % 25 ∧ win0_0.index t 1 = 0 :=
  (by decide +kernel : ∀ t : Fin grid0.N, win0_0.index t 0 = t.val % 25 ∧ win0_0.index t 1 = 0)

/-! ## The staging memrefs at a point, and the scratch buffers -/

abbrev stg0 (t : Fin cfg0.N) : Memref sig .tc .vmem S400x10000 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S10000x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S128x32 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S32x16 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S32x16 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S400x16 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S400x16 .f32 := win0_6.stage (cfg0.slots t 6)
abbrev hstg6 (t : Fin cfg0.N) : (stg6 t).IsWhole := hstage0_6 ((cfg0.slots t 6).cast nbuf0_6)
/-- The buffer of the first support x · W1, -/
abbrev supBuf : Memref sig .tc .vmem S10000x32 .f32 := Memref.whole cc0_scratch0
/-- the buffer of the second support, filled slab by slab, -/
abbrev projBuf : Memref sig .tc .vmem S10000x32 .f32 := Memref.whole cc0_scratch1
/-- and the buffer holding W2 and W3 side by side. -/
abbrev wBuf : Memref sig .tc .vmem S32x32 .f32 := Memref.whole cc0_scratch2

/-- The region's standing invariant, with the three scratch buffers as memrefs owned at some contents. -/
theorem PhiA_eq (c : Dev nD) :
    (Pipeline.ΦA spec0 c : sProp 𝕄)
      = iprop(iprop((∃ d, owns (c : Thread nD τ) supBuf fullShare d) ∗ (∃ d, owns (c : Thread nD τ) projBuf fullShare d) ∗ (∃ d, owns (c : Thread nD τ) wBuf fullShare d)) ∗ (∃ r, prngReg c r)) := by
  unfold Pipeline.ΦA; rw [scopedRest0_eq]; simp only [supBuf, projBuf, wBuf, owns_whole]; try rfl

end Cert.Kernel.Hand

end
-- ==== Proof.Bits.Terms.lean ====
/-
  The contents of the scratch buffers and of the output blocks, named.

  The first support is x · W1; the joined weights hold W2 in columns 0 … 15 and W3 in columns 16 … 31; the slab of
  point t of the first pass is  max(A_t · (x · W1), 0) · [W2 | W3]  with A_t the adjacency row block fetched at t;
  the second support stacks the 25 slabs: its row r lies in slab r / 400 at row r % 400.  At point t of the second
  pass the two output blocks are the column halves of  max(A_t · (second support), 0).  All of these are stated
  through the body's own pure terms, for any reading of the floats.
-/
import proofs.«123737_g71674414235792_cont_9to1c4b_416_14_alg».proof.Proof.Bits.Slab
import Idealize.ShloMosaic.Lib.ValueIdx
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A rectangle of a buffer overwritten with `w`, the rest of the buffer as it was. -/
def SlabWritten {S : Shape} {α : Type} (R : Rect S) (w : R.shape.Idx → α) (old new : S.Idx → α) : Prop :=
  (∀ x, new (R.emb x) = w x) ∧ ∀ y, y ∉ R.set → new y = old y

/-- The rows the second part of the body writes at a point of the first pass. -/
abbrev slabRect (i : grid0.Coords) (h : condFill i) : Rect S10000x32 := Rect.unit (k0_off1 i) S400x32.size (k0_off1_inb i h)

/-- The two stores that lay W2 and W3 side by side (the later store first). -/
abbrev wPieces (x3 x4 : Vec F S32x16 .f32) : List (View.Piece (Elt F) S32x32 .f32) :=
  [⟨Rect.unit (s := S32x32) ![0, 16] S32x16.size inb_S32x32_S32x16_0_16, k0_pay3 x4⟩,
   ⟨Rect.unit (s := S32x32) ![0, 0] S32x16.size inb_S32x32_S32x16_0_0, k0_pay2 x3⟩]

/-- W2 and W3 side by side. -/
def wCat (x3 x4 : Vec F S32x16 .f32) : Vec F S32x32 .f32 := View.canon (wPieces x3 x4)

/-- The two column halves cover the 32 × 32 buffer. -/
theorem wPieces_cover (x3 x4 : Vec F S32x16 .f32) (y : S32x32.Idx) : ∃ pc ∈ wPieces x3 x4, y ∈ pc.1.set :=
  View.cover_of_tiledL (wPieces x3 x4) S32x16.size (by sl_kernel_rfl) y

variable (m : (ℓ : Loc nD τ sig) → Buf (Elt F) ℓ)

/-- The argument arrays as the region finds them. -/
def xArr (c : Dev nD) : Vec F S10000x128 .f32 := V m c main_arg0
def w1Arr (c : Dev nD) : Vec F S128x32 .f32 := V m c main_arg2
def w2Arr (c : Dev nD) : Vec F S32x16 .f32 := V m c main_arg3
def w3Arr (c : Dev nD) : Vec F S32x16 .f32 := V m c main_arg4
/-- The adjacency row block fetched at point t. -/
def adjBlk (c : Dev nD) (t : Fin cfg0.N) : Vec F S400x10000 .f32 := iblk m c 0 t

/-- The first support x · W1. -/
def sup1 (c : Dev nD) : Vec F S10000x32 .f32 := k0_pay1 (xArr m c) (w1Arr m c)
/-- The joined weights [W2 | W3]. -/
def wBoth (c : Dev nD) : Vec F S32x32 .f32 := wCat (w2Arr m c) (w3Arr m c)
/-- The slab of the second support computed from the adjacency block of point t. -/
def slabOf (c : Dev nD) (t : Fin cfg0.N) : Vec F S400x32 .f32 := k0_pay4 (adjBlk m c t) (sup1 m c) (wBoth m c)

theorem row_block_lt (y : S10000x32.Idx) : (y 0).val / 400 < cfg0.N := by
  have h : (y 0).val < 10000 := (y 0).isLt
  have hN : cfg0.N = 50 := N_0
  omega

/-- The second support: row r lies in slab r / 400, at row r % 400 of it. -/
def sup2 (c : Dev nD) : Vec F S10000x32 .f32 := fun y =>
  slabOf m c ⟨(y 0).val / 400, row_block_lt y⟩ (ValueIdx.ix2 (⟨(y 0).val % 400, Nat.mod_lt _ (by decide)⟩ : Fin 400) (⟨(y 1).val, (y 1).isLt⟩ : Fin 32))

/-- The first output block at point t of the second pass: columns 0 … 15 of max(A_t · sup2, 0); -/
def muBlk (c : Dev nD) (t : Fin cfg0.N) : Vec F S400x16 .f32 := k0_pay6 (adjBlk m c t) (sup2 m c)
/-- the second: columns 16 … 31. -/
def lvBlk (c : Dev nD) (t : Fin cfg0.N) : Vec F S400x16 .f32 := k0_pay7 (adjBlk m c t) (sup2 m c)

/-- The first n slabs of the second support are in place. -/
def SupFilled (c : Dev nD) (n : ℕ) (d : Vec F S10000x32 .f32) : Prop :=
  ∀ y : S10000x32.Idx, (y 0).val < 400 * n → d y = sup2 m c y

end Cert.Kernel.Hand

end
-- ==== Proof.Bits.Data.lean ====
/-
  What the pipeline is told about this kernel: the arrays as the region finds them; after the body at each point the
  input blocks unchanged and — at the points of the second pass, where they are written back — the two output blocks
  at the column halves of max(A_t · S2, 0); and between the points the scratch buffers: before the first point anything,
  afterwards the first support and the joined weights in place and the first min(n, 25) slabs of the second support
  in place.
-/
import proofs.«123737_g71674414235792_cont_9to1c4b_416_14_alg».proof.Proof.Bits.Terms

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The scratch buffers before point n. -/
def PhiS (c : Dev nD) : (n : ℕ) → n ≤ cfg0.N → sProp 𝕄
  | 0, _ => Pipeline.ΦA spec0 c
  | n + 1, _ => iprop(iprop(owns (c : Thread nD τ) supBuf fullShare (sup1 m c) ∗ (∃ d, ⌜SupFilled m c (min (n + 1) 25) d⌝ ∗ owns (c : Thread nD τ) projBuf fullShare d) ∗ owns (c : Thread nD τ) wBuf fullShare (wBoth m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) supBuf fullShare (sup1 m c) ∗ (∃ d, ⌜SupFilled m c (min (n + 1) 25) d⌝ ∗ owns (c : Thread nD τ) projBuf fullShare d) ∗ owns (c : Thread nD τ) wBuf fullShare (wBoth m c)) ∗ (∃ r, prngReg c r)) := rfl

theorem PhiS_pos (c : Dev nD) (n : ℕ) (h : n ≤ cfg0.N) (hz : n ≠ 0) :
    PhiS m c n h = iprop(iprop(owns (c : Thread nD τ) supBuf fullShare (sup1 m c) ∗ (∃ d, ⌜SupFilled m c (min n 25) d⌝ ∗ owns (c : Thread nD τ) projBuf fullShare d) ∗ owns (c : Thread nD τ) wBuf fullShare (wBoth m c)) ∗ (∃ r, prngReg c r)) := by
  cases n with
  | zero => exact absurd rfl hz
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => muBlk m c t
    | ⟨6, _⟩ => lvBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = muBlk m c t := by dsimp only [dats]
theorem after6 (c : Dev nD) (t : Fin cfg0.N) : (dats m 0 c).after 6 t = lvBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

end Cert.Kernel.Hand

end
-- ==== Proof.Bits.SlabStep.lean ====
/-
  Index facts about the blocks and the row slabs; nothing here touches the arithmetic of the floats.

  The windows of x, W1, W2 and W3 have the constant index map (0, 0) and a block as large as the array, so entry y of
  the block read at any point is entry y of the array: on each axis the array coordinate is 0 · size + 1 · y = y.

  The second support is filled slab by slab.  The slab of point t (t < 25) is the unit-stride rectangle of 400 × 32
  entries at offset (400·t, 0).  If the rows below 400·t of a buffer already agree with the second support and the
  slab of point t is written over that rectangle, the rows below 400·(t + 1) agree: an entry inside the rectangle is
  (400·t + r, k) with r < 400, and row 400·t + r of the second support lies in slab (400·t + r) / 400 = t at row
  (400·t + r) % 400 = r; an entry outside it (its column is below 32 in any case) has its row below 400·t and kept its
  value.  Nothing is claimed with no slab in place, and with all 25 in place every row is below 10000 = 400 · 25, so the
  buffer is the second support.
-/
import proofs.«123737_g71674414235792_cont_9to1c4b_416_14_alg».proof.Proof.Bits.Terms

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The index maps of the four whole-array windows are constantly (0, 0). -/
theorem whole_index1 : ∀ t : Fin cfg0.N, win0_1.index t 0 = 0 ∧ win0_1.index t 1 = 0 :=
  (by decide +kernel : ∀ t : Fin grid0.N, win0_1.index t 0 = 0 ∧ win0_1.index t 1 = 0)
theorem whole_index2 : ∀ t : Fin cfg0.N, win0_2.index t 0 = 0 ∧ win0_2.index t 1 = 0 :=
  (by decide +kernel : ∀ t : Fin grid0.N, win0_2.index t 0 = 0 ∧ win0_2.index t 1 = 0)
theorem whole_index3 : ∀ t : Fin cfg0.N, win0_3.index t 0 = 0 ∧ win0_3.index t 1 = 0 :=
  (by decide +kernel : ∀ t : Fin grid0.N, win0_3.index t 0 = 0 ∧ win0_3.index t 1 = 0)
theorem whole_index4 : ∀ t : Fin cfg0.N, win0_4.index t 0 = 0 ∧ win0_4.index t 1 = 0 :=
  (by decide +kernel : ∀ t : Fin grid0.N, win0_4.index t 0 = 0 ∧ win0_4.index t 1 = 0)

/-- The windows of x, W1, W2, W3 take their whole arrays at every point: the block read at a point is the array. -/
theorem iblk1_eq (c : Dev nD) (t : Fin cfg0.N) : (iblk m c 1 t : Vec F S10000x128 .f32) = xArr m c := by
  funext y
  unfold iblk xArr
  rw [View.read_apply]
  show V m c main_arg0 (((cfg0.win 1).blk t).view.emb y) = V m c main_arg0 y
  refine congrArg _ ?_
  obtain ⟨e0, e1⟩ := whole_index1 t
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega
theorem iblk2_eq (c : Dev nD) (t : Fin cfg0.N) : (iblk m c 2 t : Vec F S128x32 .f32) = w1Arr m c := by
  funext y
  unfold iblk w1Arr
  rw [View.read_apply]
  show V m c main_arg2 (((cfg0.win 2).blk t).view.emb y) = V m c main_arg2 y
  refine congrArg _ ?_
  obtain ⟨e0, e1⟩ := whole_index2 t
  funext a; apply Fin.ext
  match a with
  | ⟨0, _⟩ => show win0_2.index t (0 : Fin 2) * 128 + 1 * (y 0).val = (y 0).val; omega
  | ⟨1, _⟩ => show win0_2.index t (1 : Fin 2) * 32 + 1 * (y 1).val = (y 1).val; omega
theorem iblk3_eq (c : Dev nD) (t : Fin cfg0.N) : (iblk m c 3 t : Vec F S32x16 .f32) = w2Arr m c := by
  funext y
  unfold iblk w2Arr
  rw [View.read_apply]
  show V m c main_arg3 (((cfg0.win 3).blk t).view.emb y) = V m c main_arg3 y
  refine congrArg _ ?_
  obtain ⟨e0, e1⟩ := whole_index3 t
  funext a; apply Fin.ext
  match a with
  | ⟨0, _⟩ => show win0_3.index t (0 : Fin 2) * 32 + 1 * (y 0).val = (y 0).val; omega
  | ⟨1, _⟩ => show win0_3.index t (1 : Fin 2) * 16 + 1 * (y 1).val = (y 1).val; omega
theorem iblk4_eq (c : Dev nD) (t : Fin cfg0.N) : (iblk m c 4 t : Vec F S32x16 .f32) = w3Arr m c := by
  funext y
  unfold iblk w3Arr
  rw [View.read_apply]
  show V m c main_arg4 (((cfg0.win 4).blk t).view.emb y) = V m c main_arg4 y
  refine congrArg _ ?_
  obtain ⟨e0, e1⟩ := whole_index4 t
  funext a; apply Fin.ext
  match a with
  | ⟨0, _⟩ => show win0_4.index t (0 : Fin 2) * 32 + 1 * (y 0).val = (y 0).val; omega
  | ⟨1, _⟩ => show win0_4.index t (1 : Fin 2) * 16 + 1 * (y 1).val = (y 1).val; omega

/-- No slab in place says nothing. -/
theorem supFilled_zero (c : Dev nD) (d : Vec F S10000x32 .f32) : SupFilled m c 0 d := by
  intro y hy
  omega

/-- Row 400·t + r, column k of the second support is entry (r, k) of the slab of point t. -/
theorem sup2_at (c : Dev nD) (t : Fin cfg0.N) (x : S400x32.Idx) (y : S10000x32.Idx)
    (h0 : (y 0).val = 400 * t.val + (x 0).val) (h1 : (y 1).val = (x 1).val) : sup2 m c y = slabOf m c t x := by
  have hx0 : (x 0).val < 400 := (x 0).isLt
  have ht : (⟨(y 0).val / 400, row_block_lt y⟩ : Fin cfg0.N) = t := Fin.ext (by show (y 0).val / 400 = t.val; omega)
  have hx : (ValueIdx.ix2 (⟨(y 0).val % 400, Nat.mod_lt _ (by decide)⟩ : Fin 400) (⟨(y 1).val, (y 1).isLt⟩ : Fin 32) : S400x32.Idx) = x := by
    funext a
    match a with
    | ⟨0, _⟩ => apply Fin.ext; show (y 0).val % 400 = (x 0).val; omega
    | ⟨1, _⟩ => apply Fin.ext; show (y 1).val = (x 1).val; omega
  unfold sup2
  rw [ht, hx]

/-- Writing the slab of point t (t < 25) over a buffer whose first t slabs are in place leaves the first t + 1 in place. -/
theorem supFilled_step (c : Dev nD) (t : Fin cfg0.N) (ht : t.val < 25) (d d' : Vec F S10000x32 .f32)
    (hd : SupFilled m c t.val d)
    (hw : SlabWritten (slabRect (grid0.coords t) ((fill_iff t).mpr ht)) (slabOf m c t) d d') :
    SupFilled m c (t.val + 1) d' := by
  intro y hy
  obtain ⟨o0, o1⟩ := slab_off t ht
  have hy1 : (y 1).val < 32 := (y 1).isLt
  by_cases hm : y ∈ (slabRect (grid0.coords t) ((fill_iff t).mpr ht)).set
  · obtain ⟨x, hx⟩ : ∃ x, (slabRect (grid0.coords t) ((fill_iff t).mpr ht)).emb x = y :=
      (slabRect (grid0.coords t) ((fill_iff t).mpr ht)).exists_idx_of_mem hm
    have e0 : k0_off1 (grid0.coords t) 0 + 1 * (x 0).val = (y 0).val := congrArg (fun i : S10000x32.Idx => (i 0).val) hx
    have e1 : k0_off1 (grid0.coords t) 1 + 1 * (x 1).val = (y 1).val := congrArg (fun i : S10000x32.Idx => (i 1).val) hx
    have hv : d' y = slabOf m c t x := by rw [← hx]; exact hw.1 x
    rw [hv]
    exact (sup2_at m c t x y (by omega) (by omega)).symm
  · rw [hw.2 y hm]
    apply hd
    have hnm := fun h => hm (Rect.mem_set_unit.mpr h)
    by_contra hlt
    apply hnm
    intro a
    match a with
    | ⟨0, _⟩ => show k0_off1 (grid0.coords t) 0 ≤ (y 0).val ∧ (y 0).val < k0_off1 (grid0.coords t) 0 + 400; omega
    | ⟨1, _⟩ => show k0_off1 (grid0.coords t) 1 ≤ (y 1).val ∧ (y 1).val < k0_off1 (grid0.coords t) 1 + 32; omega

/-- With all 25 slabs in place the buffer is the second support. -/
theorem supFilled_full (c : Dev nD) (d : Vec F S10000x32 .f32) (hd : SupFilled m c 25 d) : d = sup2 m c := by
  funext y
  have h : (y 0).val < 10000 := (y 0).isLt
  exact hd y (by omega)

end Cert.Kernel.Hand

end
-- ==== Proof.Bits.RunFirst.lean ====
/-
  The body at the first point of the grid.  The first guarded part forms the first support x · W1 and stores it whole,
  then copies W2 into columns 0 … 15 and W3 into columns 16 … 31 of the joined weights.  The second guarded part then
  reads both back (it reads what was just stored) and overwrites rows 0 … 399 of the second support with
  max(A · (x · W1), 0) · [W2 | W3].  The output blocks are left as they were.
-/
import proofs.«123737_g71674414235792_cont_9to1c4b_416_14_alg».proof.Proof.Bits.Terms

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz'' : (![0, 0] : Fin 2 → Nat) = fun _ => 0 := by funext a; match a with | ⟨0, _⟩ => rfl | ⟨1, _⟩ => rfl

set_option maxHeartbeats 2000000 in
theorem runFirst (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S32x16 .f32) (harg6 : arg6.IsWhole) (arg7 : Memref sig .tc .vmem S400x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x32 .f32) (harg10 : arg10.IsWhole) (arg11 : Memref sig .tc .vmem S32x32 .f32) (harg11 : arg11.IsWhole)
    (hc0 : condFirst i) (hc1 : condFill i) (hc2 : ¬condEmit i)
    (x0 : Vec F S400x10000 .f32) (x1 : Vec F S10000x128 .f32) (x2 : Vec F S128x32 .f32) (x3 : Vec F S32x16 .f32) (x4 : Vec F S32x16 .f32)
    (d5 d6 : Vec F S400x16 .f32) (xs0 ds1 : Vec F S10000x32 .f32) (xs2 : Vec F S32x32 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare xs0 ∗ owns (c : Thread nD τ) arg10 fullShare ds1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (k0_pay1 x1 x2) ∗ (∃ d', ⌜SlabWritten (slabRect i hc1) (k0_pay4 x0 (k0_pay1 x1 x2) (wCat x3 x4)) ds1 d'⌝ ∗ owns (c : Thread nD τ) arg10 fullShare d') ∗ owns (c : Thread nD τ) arg11 fullShare (wCat x3 x4)) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  have e0 : View.readAt (Elt F) arg2.view (Rect.unit (s := S400x10000) ![0, 0] S400x10000.size inb_S400x10000_S400x10000_0_0).toLoadRect (harg2.unread x0) = x0 := by
    rw [View.readAt_eq_ld, harg2.read_unread, View.ld_unit_zero (S := S400x10000) zz'']
  have e3 : View.readAt (Elt F) arg3.view (Rect.unit (s := S10000x128) ![0, 0] S10000x128.size inb_S10000x128_S10000x128_0_0).toLoadRect (harg3.unread x1) = x1 := by
    rw [View.readAt_eq_ld, harg3.read_unread, View.ld_unit_zero (S := S10000x128) zz'']
  have e4 : View.readAt (Elt F) arg4.view (Rect.unit (s := S128x32) ![0, 0] S128x32.size inb_S128x32_S128x32_0_0).toLoadRect (harg4.unread x2) = x2 := by
    rw [View.readAt_eq_ld, harg4.read_unread, View.ld_unit_zero (S := S128x32) zz'']
  have e5 : View.readAt (Elt F) arg5.view (Rect.unit (s := S32x16) ![0, 0] S32x16.size inb_S32x16_S32x16_0_0).toLoadRect (harg5.unread x3) = x3 := by
    rw [View.readAt_eq_ld, harg5.read_unread, View.ld_unit_zero (S := S32x16) zz'']
  have e6 : View.readAt (Elt F) arg6.view (Rect.unit (s := S32x16) ![0, 0] S32x16.size inb_S32x16_S32x16_0_0).toLoadRect (harg6.unread x4) = x4 := by
    rw [View.readAt_eq_ld, harg6.read_unread, View.ld_unit_zero (S := S32x16) zz'']
  have e9 : arg9.view.readCov [(⟨Rect.unit (s := S10000x32) ![0, 0] S10000x32.size inb_S10000x32_S10000x32_0_0, k0_pay1 x1 x2⟩ : View.Piece (Elt F) S10000x32 .f32)]
      (Rect.unit (s := S10000x32) ![0, 0] S10000x32.size inb_S10000x32_S10000x32_0_0).toLoadRect = k0_pay1 x1 x2 :=
    View.readCov_cons_toLoadRect arg9.view _ _ []
  have e11 : arg11.view.readCov (wPieces x3 x4) (Rect.unit (s := S32x32) ![0, 0] S32x32.size inb_S32x32_S32x32_0_0).toLoadRect = wCat x3 x4 := by
    rw [View.readCov_eq_canon']
    exact View.ld_unit_zero (S := S32x32) zz'' inb_S32x32_S32x32_0_0 (View.canon (wPieces x3 x4))
  sl_exec (disch := first | exact hc0 | exact hc1 | exact hc2)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    try simp only [e3, e4]
    exact (View.read_writes_eq_canon _ _ _ (fun y => ⟨_, List.mem_singleton_self _, View.mem_set_unit_zero zz'' inb_S10000x32_S10000x32_0_0 y⟩)).trans (View.canon_unit_zero zz'' inb_S10000x32_S10000x32_0_0 _)
  isplitl [HS1]
  · iexists _; isplitr; swap
    · iexists _; isplitr; swap; · iexact HS1
      ipureintro; rfl
    ipureintro
    try simp only [e0, e3, e4, e5, e6]
    try simp only [e9, e11]
    exact ⟨fun x => View.read_writes_cons_emb _ _ _ _ [] x,
      fun y hy => (View.read_writes_apply_of_forall_not_mem _ _ y _ (fun p hp => by
        rw [List.mem_singleton] at hp; subst hp; exact hy)).trans (congrFun (harg10.read_unread ds1) y)⟩
  iexists _; isplitr; swap; · iexact HS2
  ipureintro
  try simp only [e5, e6]
  exact View.read_writes_eq_canon _ _ _ (wPieces_cover x3 x4)

end Cert.Kernel.Hand

end
-- ==== Proof.Bits.RunFill.lean ====
/-
  The body at a point of the first pass other than the first point.  Only the second guarded part runs: it loads the
  adjacency block, the first support and the joined weights, and overwrites its 400 rows of the second support with
  max(A · S1, 0) · W; every other buffer is left as it was.
-/
import proofs.«123737_g71674414235792_cont_9to1c4b_416_14_alg».proof.Proof.Bits.Terms

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz : (![0, 0] : Fin 2 → Nat) = fun _ => 0 := by funext a; match a with | ⟨0, _⟩ => rfl | ⟨1, _⟩ => rfl

set_option maxHeartbeats 1000000 in
theorem runFill (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S32x16 .f32) (harg6 : arg6.IsWhole) (arg7 : Memref sig .tc .vmem S400x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x32 .f32) (harg10 : arg10.IsWhole) (arg11 : Memref sig .tc .vmem S32x32 .f32) (harg11 : arg11.IsWhole)
    (hc0 : ¬condFirst i) (hc1 : condFill i) (hc2 : ¬condEmit i)
    (x0 : Vec F S400x10000 .f32) (x1 : Vec F S10000x128 .f32) (x2 : Vec F S128x32 .f32) (x3 : Vec F S32x16 .f32) (x4 : Vec F S32x16 .f32)
    (d5 d6 : Vec F S400x16 .f32) (xs0 ds1 : Vec F S10000x32 .f32) (xs2 : Vec F S32x32 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare xs0 ∗ owns (c : Thread nD τ) arg10 fullShare ds1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare xs0 ∗ (∃ d', ⌜SlabWritten (slabRect i hc1) (k0_pay4 x0 xs0 xs2) ds1 d'⌝ ∗ owns (c : Thread nD τ) arg10 fullShare d') ∗ owns (c : Thread nD τ) arg11 fullShare xs2) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  have e0 : View.readAt (Elt F) arg2.view (Rect.unit (s := S400x10000) ![0, 0] S400x10000.size inb_S400x10000_S400x10000_0_0).toLoadRect (harg2.unread x0) = x0 := by
    rw [View.readAt_eq_ld, harg2.read_unread, View.ld_unit_zero (S := S400x10000) zz]
  have e9 : View.readAt (Elt F) arg9.view (Rect.unit (s := S10000x32) ![0, 0] S10000x32.size inb_S10000x32_S10000x32_0_0).toLoadRect (harg9.unread xs0) = xs0 := by
    rw [View.readAt_eq_ld, harg9.read_unread, View.ld_unit_zero (S := S10000x32) zz]
  have e11 : View.readAt (Elt F) arg11.view (Rect.unit (s := S32x32) ![0, 0] S32x32.size inb_S32x32_S32x32_0_0).toLoadRect (harg11.unread xs2) = xs2 := by
    rw [View.readAt_eq_ld, harg11.read_unread, View.ld_unit_zero (S := S32x32) zz]
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  isplitl [HS1]
  · iexists _; isplitr; swap
    · iexists _; isplitr; swap; · iexact HS1
      ipureintro; rfl
    ipureintro
    try simp only [e0, e9, e11]
    exact ⟨fun x => View.read_writes_cons_emb _ _ _ _ [] x,
      fun y hy => (View.read_writes_apply_of_forall_not_mem _ _ y _ (fun p hp => by
        rw [List.mem_singleton] at hp; subst hp; exact hy)).trans (congrFun (harg10.read_unread ds1) y)⟩
  iexists _; isplitr; · ipureintro; exact harg11.read_unread _
  iexact HS2

end Cert.Kernel.Hand

end
-- ==== Proof.Bits.RunEmit.lean ====
/-
  The body at a point of the second pass.  Only the third guarded part runs: it loads the adjacency block and the whole
  second support, forms max(A · S2, 0), and stores its columns 0 … 15 into the first output block and its columns
  16 … 31 into the second; the scratch buffers are left as they were.
-/
import proofs.«123737_g71674414235792_cont_9to1c4b_416_14_alg».proof.Proof.Bits.Terms

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz' : (![0, 0] : Fin 2 → Nat) = fun _ => 0 := by funext a; match a with | ⟨0, _⟩ => rfl | ⟨1, _⟩ => rfl

set_option maxHeartbeats 1000000 in
theorem runEmit (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S32x16 .f32) (harg6 : arg6.IsWhole) (arg7 : Memref sig .tc .vmem S400x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x32 .f32) (harg10 : arg10.IsWhole) (arg11 : Memref sig .tc .vmem S32x32 .f32) (harg11 : arg11.IsWhole)
    (hc0 : ¬condFirst i) (hc1 : ¬condFill i) (hc2 : condEmit i)
    (x0 : Vec F S400x10000 .f32) (x1 : Vec F S10000x128 .f32) (x2 : Vec F S128x32 .f32) (x3 : Vec F S32x16 .f32) (x4 : Vec F S32x16 .f32)
    (d5 d6 : Vec F S400x16 .f32) (xs0 ds1 : Vec F S10000x32 .f32) (xs2 : Vec F S32x32 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare xs0 ∗ owns (c : Thread nD τ) arg10 fullShare ds1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 x0 ds1) ∗ owns (c : Thread nD τ) arg8 fullShare (k0_pay7 x0 ds1) ∗ owns (c : Thread nD τ) arg9 fullShare xs0 ∗ owns (c : Thread nD τ) arg10 fullShare ds1 ∗ owns (c : Thread nD τ) arg11 fullShare xs2) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  have e0 : View.readAt (Elt F) arg2.view (Rect.unit (s := S400x10000) ![0, 0] S400x10000.size inb_S400x10000_S400x10000_0_0).toLoadRect (harg2.unread x0) = x0 := by
    rw [View.readAt_eq_ld, harg2.read_unread, View.ld_unit_zero (S := S400x10000) zz']
  have e10 : View.readAt (Elt F) arg10.view (Rect.unit (s := S10000x32) ![0, 0] S10000x32.size inb_S10000x32_S10000x32_0_0).toLoadRect (harg10.unread ds1) = ds1 := by
    rw [View.readAt_eq_ld, harg10.read_unread, View.ld_unit_zero (S := S10000x32) zz']
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    try simp only [e0, e10]
    funext y
    obtain ⟨x, rfl⟩ : ∃ x, (Rect.unit (s := S400x16) ![0, 0] S400x16.size inb_S400x16_S400x16_0_0).emb x = y :=
      (Rect.unit (s := S400x16) ![0, 0] S400x16.size inb_S400x16_S400x16_0_0).exists_idx_of_mem (View.mem_set_unit_zero zz' _ y)
    rw [View.read_writes_cons_emb]
    exact congrFun (View.ld_unit_zero (Val := Elt F) (e := .f32) (S := S400x16) zz' inb_S400x16_S400x16_0_0 (k0_pay6 x0 ds1)).symm x
  isplitl [H6]
  · iexists _; isplitr; swap; · iexact H6
    ipureintro
    try simp only [e0, e10]
    funext y
    obtain ⟨x, rfl⟩ : ∃ x, (Rect.unit (s := S400x16) ![0, 0] S400x16.size inb_S400x16_S400x16_0_0).emb x = y :=
      (Rect.unit (s := S400x16) ![0, 0] S400x16.size inb_S400x16_S400x16_0_0).exists_idx_of_mem (View.mem_set_unit_zero zz' _ y)
    rw [View.read_writes_cons_emb]
    exact congrFun (View.ld_unit_zero (Val := Elt F) (e := .f32) (S := S400x16) zz' inb_S400x16_S400x16_0_0 (k0_pay7 x0 ds1)).symm x
  isplitl [HS0]
  · iexists _; isplitr; · ipureintro; exact harg9.read_unread _
    iexact HS0
  isplitl [HS1]
  · iexists _; isplitr; · ipureintro; exact harg10.read_unread _
    iexact HS1
  iexists _; isplitr; · ipureintro; exact harg11.read_unread _
  iexact HS2

end Cert.Kernel.Hand

end
-- ==== Proof.Bits.Body.lean ====
/-
  The body keeps the scratch invariant, point by point, and the whole region runs.

  At point 0 the scratch buffers hold anything; the body leaves the first support and the joined weights in place and
  slab 0 of the second support.  At a point 0 < t < 25 it finds the first t slabs in place and adds slab t.  At a point
  t ≥ 25 all 25 slabs are in place, so the buffer IS the second support, and the body stores the two output blocks
  computed from it.  On the first pass the output windows are neither stored nor written back, so they are handed back
  as found; on the second pass they are stored and written back.  The argument arrays are only ever read.
-/
import proofs.«123737_g71674414235792_cont_9to1c4b_416_14_alg».proof.Proof.Bits.Data
import proofs.«123737_g71674414235792_cont_9to1c4b_416_14_alg».proof.Proof.Bits.SlabStep
import proofs.«123737_g71674414235792_cont_9to1c4b_416_14_alg».proof.Proof.Bits.RunFirst
import proofs.«123737_g71674414235792_cont_9to1c4b_416_14_alg».proof.Proof.Bits.RunFill
import proofs.«123737_g71674414235792_cont_9to1c4b_416_14_alg».proof.Proof.Bits.RunEmit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem slabOf_eq (c : Dev nD) (t : Fin cfg0.N) :
    slabOf m c t = k0_pay4 (iblk m c 0 t) (sup1 m c) (wBoth m c) := rfl
theorem slabOf_eq' (c : Dev nD) (t : Fin cfg0.N) :
    slabOf m c t = k0_pay4 (iblk m c 0 t) (k0_pay1 (xArr m c) (w1Arr m c)) (wCat (w2Arr m c) (w3Arr m c)) := rfl
theorem sup1_eq (c : Dev nD) : sup1 m c = k0_pay1 (xArr m c) (w1Arr m c) := rfl
theorem wBoth_eq (c : Dev nD) : wBoth m c = wCat (w2Arr m c) (w3Arr m c) := rfl
theorem muBlk_eq (c : Dev nD) (t : Fin cfg0.N) : muBlk m c t = k0_pay6 (iblk m c 0 t) (sup2 m c) := rfl
theorem lvBlk_eq (c : Dev nD) (t : Fin cfg0.N) : lvBlk m c t = k0_pay7 (iblk m c 0 t) (sup2 m c) := rfl

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [iblk1_eq m c t, iblk2_eq m c t, iblk3_eq m c t, iblk4_eq m c t]
  by_cases hlt : t.val < 25
  · have hi5 : cfg0.idle 5 (grid0.coords t) = true := by rw [idle5_eq]; exact decide_eq_true hlt
    have hi6 : cfg0.idle 6 (grid0.coords t) = true := by rw [idle6_eq]; exact decide_eq_true hlt
    have hf5 : (cfg0.win 5).flush t = false := by rw [flush5_eq]; exact decide_eq_false (by omega)
    have hf6 : (cfg0.win 6).flush t = false := by rw [flush6_eq]; exact decide_eq_false (by omega)
    rw [(dats m 0 c).leavesExact_idle 5 t hi5 hf5, (dats m 0 c).leavesExact_idle 6 t hi6 hf6]
    rw [Nat.min_eq_left (show t.val + 1 ≤ 25 by omega)]
    by_cases hz : t.val = 0
    · rw [Phi_castSucc m c t, PhiS_zero m c _ _ hz, PhiA_eq]
      iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) (stg0 t) (hstg0 t) (stg1 t) (hstg1 t) (stg2 t) (hstg2 t) (stg3 t) (hstg3 t) (stg4 t) (hstg4 t) (stg5 t) (hstg5 t) (stg6 t) (hstg6 t) supBuf (Memref.isWhole_whole _) projBuf (Memref.isWhole_whole _) wBuf (Memref.isWhole_whole _)
        ((first_iff t).mpr hz) ((fill_iff t).mpr hlt) (fun h => absurd ((emit_iff t).mp h) (by omega))
        (iblk m c 0 t) (xArr m c) (w1Arr m c) (w2Arr m c) (w3Arr m c) _ _ e0 e1 e2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, ⟨%d', %hw, HS1⟩, HS2⟩
      isplitl [HS0 HS1 HS2 Hg]
      · isplitl [HS0 HS1 HS2]
        · isplitl [HS0]; · iexact HS0
          isplitl [HS1]
          · iexists d'; isplitr
            · ipureintro
              exact supFilled_step m c t hlt e1 d' (by rw [hz]; exact supFilled_zero m c e1) hw
            iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [Phi_castSucc m c t, PhiS_pos m c _ _ hz, Nat.min_eq_left (show t.val ≤ 25 by omega)]
      iintro ⟨⟨⟨HS0, ⟨%e1, %hd, HS1⟩, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (runFill c (grid0.coords t) (stg0 t) (hstg0 t) (stg1 t) (hstg1 t) (stg2 t) (hstg2 t) (stg3 t) (hstg3 t) (stg4 t) (hstg4 t) (stg5 t) (hstg5 t) (stg6 t) (hstg6 t) supBuf (Memref.isWhole_whole _) projBuf (Memref.isWhole_whole _) wBuf (Memref.isWhole_whole _)
        (fun h => hz ((first_iff t).mp h)) ((fill_iff t).mpr hlt) (fun h => absurd ((emit_iff t).mp h) (by omega))
        (iblk m c 0 t) (xArr m c) (w1Arr m c) (w2Arr m c) (w3Arr m c) _ _ (sup1 m c) e1 (wBoth m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, ⟨%d', %hw, HS1⟩, HS2⟩
      isplitl [HS0 HS1 HS2 Hg]
      · isplitl [HS0 HS1 HS2]
        · isplitl [HS0]; · iexact HS0
          isplitl [HS1]
          · iexists d'; isplitr
            · ipureintro
              exact supFilled_step m c t hlt e1 d' hd hw
            iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hge : 25 ≤ t.val := by omega
    have hi5 : cfg0.idle 5 (grid0.coords t) = false := by rw [idle5_eq]; exact decide_eq_false hlt
    have hi6 : cfg0.idle 6 (grid0.coords t) = false := by rw [idle6_eq]; exact decide_eq_false hlt
    rw [show (dats m 0 c).leavesExact 5 t = owns (c : Thread nD τ) (stg5 t) fullShare ((dats m 0 c).after 5 t) from by
      unfold Dat.leavesExact; rw [hi5], after5]
    rw [show (dats m 0 c).leavesExact 6 t = owns (c : Thread nD τ) (stg6 t) fullShare ((dats m 0 c).after 6 t) from by
      unfold Dat.leavesExact; rw [hi6], after6]
    rw [Nat.min_eq_right (show 25 ≤ t.val + 1 by omega)]
    rw [Phi_castSucc m c t, PhiS_pos m c _ _ (by omega), Nat.min_eq_right hge]
    iintro ⟨⟨⟨HS0, ⟨%e1, %hd, HS1⟩, HS2⟩, Hg⟩, Ho, ⟨%d0, H0⟩, ⟨%d1, H1⟩, ⟨%d2, H2⟩, ⟨%d3, H3⟩, ⟨%d4, H4⟩, ⟨%d5, H5⟩, ⟨%d6, H6⟩⟩
    obtain rfl := supFilled_full m c e1 hd
    iapply (runEmit c (grid0.coords t) (stg0 t) (hstg0 t) (stg1 t) (hstg1 t) (stg2 t) (hstg2 t) (stg3 t) (hstg3 t) (stg4 t) (hstg4 t) (stg5 t) (hstg5 t) (stg6 t) (hstg6 t) supBuf (Memref.isWhole_whole _) projBuf (Memref.isWhole_whole _) wBuf (Memref.isWhole_whole _)
      (fun h => absurd ((first_iff t).mp h) (by omega)) (fun h => absurd ((fill_iff t).mp h) (by omega)) ((emit_iff t).mpr hge)
      (iblk m c 0 t) (xArr m c) (w1Arr m c) (w2Arr m c) (w3Arr m c) _ _ (sup1 m c) (sup2 m c) (wBoth m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]
        · iexists (sup2 m c); isplitr
          · ipureintro; exact fun y _ => rfl
          iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch buffers hold anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point their contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨⟨HS0, ⟨%d, -, HS1⟩, HS2⟩, Hg⟩
  isplitl [HS0 HS1 HS2]
  · isplitl [HS0]; · iexists _; iexact HS0
    isplitl [HS1]; · iexists _; iexact HS1
    iexists _; iexact HS2
  iexact Hg

/-- Every weakly fair execution of the program terminates, and every final state has each array of the pipeline at what
    the write-backs leave and every other unscoped buffer as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.Kernel.Hand

end
-- ==== Proof.Slab.lean ====
/-
  The grid of the graph-convolution kernel has 50 points, walked in order: points 0 … 24 are the first pass over the
  adjacency matrix (row block t), points 25 … 49 the second pass (row block t − 25).  The body has three guarded
  parts.  The first part runs at point 0 only: it forms the first support x · W1 and lays W2 and W3 side by side.  The
  second part runs at every point of the first pass: it writes rows 400·t … 400·t + 399 of the second support.  The
  third part runs at every point of the second pass: it writes the two output blocks.  Here these facts are decided
  over the grid once: which guard holds at which point, where the row slab of point t starts, at which points the
  output windows are written back (exactly the points of the second pass) and at which the body leaves them untouched
  (exactly the points of the first pass).  The scratch buffers are named, and the region's standing invariant is
  restated over them.
-/
import proofs.«123737_g71674414235792_cont_9to1c4b_416_14_alg».proof.Proof.Gen.KernelIdeal.Frame
import proofs.«123737_g71674414235792_cont_9to1c4b_416_14_alg».proof.Proof.Gen.KernelIdeal.Skeleton

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three guards, as the body computes them from the grid coordinates -/

/-- The guard of the first part: both coordinates zero. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The guard of the second part: the pass coordinate is zero. -/
abbrev condFill (i : grid0.Coords) : Prop := k0_cond2 i = 1#1
/-- The guard of the third part: the pass coordinate is one. -/
abbrev condEmit (i : grid0.Coords) : Prop := k0_cond3 i = 1#1

theorem first_iff : ∀ t : Fin cfg0.N, condFirst (grid0.coords t) ↔ t.val = 0 :=
  (by decide +kernel : ∀ t : Fin grid0.N, condFirst (grid0.coords t) ↔ t.val = 0)
theorem fill_iff : ∀ t : Fin cfg0.N, condFill (grid0.coords t) ↔ t.val < 25 :=
  (by decide +kernel : ∀ t : Fin grid0.N, condFill (grid0.coords t) ↔ t.val < 25)
theorem emit_iff : ∀ t : Fin cfg0.N, condEmit (grid0.coords t) ↔ 25 ≤ t.val :=
  (by decide +kernel : ∀ t : Fin grid0.N, condEmit (grid0.coords t) ↔ 25 ≤ t.val)

/-- The row slab of point t of the first pass starts at row 400·t, column 0. -/
theorem slab_off : ∀ t : Fin cfg0.N, t.val < 25 → k0_off1 (grid0.coords t) 0 = 400 * t.val ∧ k0_off1 (grid0.coords t) 1 = 0 :=
  (by decide +kernel : ∀ t : Fin grid0.N, t.val < 25 → k0_off1 (grid0.coords t) 0 = 400 * t.val ∧ k0_off1 (grid0.coords t) 1 = 0)

/-! ## Where the windows are live, and where the outputs are written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The first output window is untouched by the body exactly on the first pass, -/
theorem idle5_eq : ∀ t : Fin cfg0.N, cfg0.idle 5 (grid0.coords t) = decide (t.val < 25) := by decide +kernel
/-- and so is the second. -/
theorem idle6_eq : ∀ t : Fin cfg0.N, cfg0.idle 6 (grid0.coords t) = decide (t.val < 25) := by decide +kernel
/-- The first output window is written back exactly at the points of the second pass, -/
theorem flush5_eq : ∀ t : Fin cfg0.N, (cfg0.win 5).flush t = decide (25 ≤ t.val) :=
  (by decide +kernel : ∀ t : Fin grid0.N, win0_5.flush t = decide (25 ≤ t.val))
/-- and so is the second. -/
theorem flush6_eq : ∀ t : Fin cfg0.N, (cfg0.win 6).flush t = decide (25 ≤ t.val) :=
  (by decide +kernel : ∀ t : Fin grid0.N, win0_6.flush t = decide (25 ≤ t.val))
/-- The output block written back at point t of the second pass is row block t − 25. -/
theorem out_index5 : ∀ t : Fin cfg0.N, 25 ≤ t.val → win0_5.index t 0 = t.val - 25 ∧ win0_5.index t 1 = 0 :=
  (by decide +kernel : ∀ t : Fin grid0.N, 25 ≤ t.val → win0_5.index t 0 = t.val - 25 ∧ win0_5.index t 1 = 0)
theorem out_index6 : ∀ t : Fin cfg0.N, 25 ≤ t.val → win0_6.index t 0 = t.val - 25 ∧ win0_6.index t 1 = 0 :=
  (by decide +kernel : ∀ t : Fin grid0.N, 25 ≤ t.val → win0_6.index t 0 = t.val - 25 ∧ win0_6.index t 1 = 0)
/-- The adjacency block fetched at point t is row block t mod 25; the other inputs are whole arrays. -/
theorem adj_index : ∀ t : Fin cfg0.N, win0_0.index t 0 = t.val % 25 ∧ win0_0.index t 1 = 0 :=
  (by decide +kernel : ∀ t : Fin grid0.N, win0_0.index t 0 = t.val % 25 ∧ win0_0.index t 1 = 0)

/-! ## The staging memrefs at a point, and the scratch buffers -/

abbrev stg0 (t : Fin cfg0.N) : Memref sig .tc .vmem S400x10000 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S10000x128 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S128x32 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S32x16 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S32x16 .f32 := win0_4.stage (cfg0.slots t 4)
abbrev hstg4 (t : Fin cfg0.N) : (stg4 t).IsWhole := hstage0_4 ((cfg0.slots t 4).cast nbuf0_4)
abbrev stg5 (t : Fin cfg0.N) : Memref sig .tc .vmem S400x16 .f32 := win0_5.stage (cfg0.slots t 5)
abbrev hstg5 (t : Fin cfg0.N) : (stg5 t).IsWhole := hstage0_5 ((cfg0.slots t 5).cast nbuf0_5)
abbrev stg6 (t : Fin cfg0.N) : Memref sig .tc .vmem S400x16 .f32 := win0_6.stage (cfg0.slots t 6)
abbrev hstg6 (t : Fin cfg0.N) : (stg6 t).IsWhole := hstage0_6 ((cfg0.slots t 6).cast nbuf0_6)
/-- The buffer of the first support x · W1, -/
abbrev supBuf : Memref sig .tc .vmem S10000x32 .f32 := Memref.whole cc0_scratch0
/-- the buffer of the second support, filled slab by slab, -/
abbrev projBuf : Memref sig .tc .vmem S10000x32 .f32 := Memref.whole cc0_scratch1
/-- and the buffer holding W2 and W3 side by side. -/
abbrev wBuf : Memref sig .tc .vmem S32x32 .f32 := Memref.whole cc0_scratch2

/-- The region's standing invariant, with the three scratch buffers as memrefs owned at some contents. -/
theorem PhiA_eq (c : Dev nD) :
    (Pipeline.ΦA spec0 c : sProp 𝕄)
      = iprop(iprop((∃ d, owns (c : Thread nD τ) supBuf fullShare d) ∗ (∃ d, owns (c : Thread nD τ) projBuf fullShare d) ∗ (∃ d, owns (c : Thread nD τ) wBuf fullShare d)) ∗ (∃ r, prngReg c r)) := by
  unfold Pipeline.ΦA; rw [scopedRest0_eq]; simp only [supBuf, projBuf, wBuf, owns_whole]; try rfl

end Cert.KernelIdeal.Hand

end
-- ==== Proof.Terms.lean ====
/-
  The contents of the scratch buffers and of the output blocks, named.

  The first support is x · W1; the joined weights hold W2 in columns 0 … 15 and W3 in columns 16 … 31; the slab of
  point t of the first pass is  max(A_t · (x · W1), 0) · [W2 | W3]  with A_t the adjacency row block fetched at t;
  the second support stacks the 25 slabs: its row r lies in slab r / 400 at row r % 400.  At point t of the second
  pass the two output blocks are the column halves of  max(A_t · (second support), 0).  All of these are stated
  through the body's own pure terms, for any reading of the floats.
-/
import proofs.«123737_g71674414235792_cont_9to1c4b_416_14_alg».proof.Proof.Slab
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A rectangle of a buffer overwritten with `w`, the rest of the buffer as it was. -/
def SlabWritten {S : Shape} {α : Type} (R : Rect S) (w : R.shape.Idx → α) (old new : S.Idx → α) : Prop :=
  (∀ x, new (R.emb x) = w x) ∧ ∀ y, y ∉ R.set → new y = old y

/-- The rows the second part of the body writes at a point of the first pass. -/
abbrev slabRect (i : grid0.Coords) (h : condFill i) : Rect S10000x32 := Rect.unit (k0_off1 i) S400x32.size (k0_off1_inb i h)

/-- The two stores that lay W2 and W3 side by side (the later store first). -/
abbrev wPieces (x3 x4 : Vec F S32x16 .f32) : List (View.Piece (Elt F) S32x32 .f32) :=
  [⟨Rect.unit (s := S32x32) ![0, 16] S32x16.size inb_S32x32_S32x16_0_16, k0_pay3 x4⟩,
   ⟨Rect.unit (s := S32x32) ![0, 0] S32x16.size inb_S32x32_S32x16_0_0, k0_pay2 x3⟩]

/-- W2 and W3 side by side. -/
def wCat (x3 x4 : Vec F S32x16 .f32) : Vec F S32x32 .f32 := View.canon (wPieces x3 x4)

/-- The two column halves cover the 32 × 32 buffer. -/
theorem wPieces_cover (x3 x4 : Vec F S32x16 .f32) (y : S32x32.Idx) : ∃ pc ∈ wPieces x3 x4, y ∈ pc.1.set :=
  View.cover_of_tiledL (wPieces x3 x4) S32x16.size (by sl_kernel_rfl) y

variable (m : (ℓ : Loc nD τ sig) → Buf (Elt F) ℓ)

/-- The argument arrays as the region finds them. -/
def xArr (c : Dev nD) : Vec F S10000x128 .f32 := V m c main_arg0
def w1Arr (c : Dev nD) : Vec F S128x32 .f32 := V m c main_arg2
def w2Arr (c : Dev nD) : Vec F S32x16 .f32 := V m c main_arg3
def w3Arr (c : Dev nD) : Vec F S32x16 .f32 := V m c main_arg4
/-- The adjacency row block fetched at point t. -/
def adjBlk (c : Dev nD) (t : Fin cfg0.N) : Vec F S400x10000 .f32 := iblk m c 0 t

/-- The first support x · W1. -/
def sup1 (c : Dev nD) : Vec F S10000x32 .f32 := k0_pay1 (xArr m c) (w1Arr m c)
/-- The joined weights [W2 | W3]. -/
def wBoth (c : Dev nD) : Vec F S32x32 .f32 := wCat (w2Arr m c) (w3Arr m c)
/-- The slab of the second support computed from the adjacency block of point t. -/
def slabOf (c : Dev nD) (t : Fin cfg0.N) : Vec F S400x32 .f32 := k0_pay4 (adjBlk m c t) (sup1 m c) (wBoth m c)

theorem row_block_lt (y : S10000x32.Idx) : (y 0).val / 400 < cfg0.N := by
  have h : (y 0).val < 10000 := (y 0).isLt
  have hN : cfg0.N = 50 := N_0
  omega

/-- The second support: row r lies in slab r / 400, at row r % 400 of it. -/
def sup2 (c : Dev nD) : Vec F S10000x32 .f32 := fun y =>
  slabOf m c ⟨(y 0).val / 400, row_block_lt y⟩ (ValueIdx.ix2 (⟨(y 0).val % 400, Nat.mod_lt _ (by decide)⟩ : Fin 400) (⟨(y 1).val, (y 1).isLt⟩ : Fin 32))

/-- The first output block at point t of the second pass: columns 0 … 15 of max(A_t · sup2, 0); -/
def muBlk (c : Dev nD) (t : Fin cfg0.N) : Vec F S400x16 .f32 := k0_pay6 (adjBlk m c t) (sup2 m c)
/-- the second: columns 16 … 31. -/
def lvBlk (c : Dev nD) (t : Fin cfg0.N) : Vec F S400x16 .f32 := k0_pay7 (adjBlk m c t) (sup2 m c)

/-- The first n slabs of the second support are in place. -/
def SupFilled (c : Dev nD) (n : ℕ) (d : Vec F S10000x32 .f32) : Prop :=
  ∀ y : S10000x32.Idx, (y 0).val < 400 * n → d y = sup2 m c y

end Cert.KernelIdeal.Hand

end
-- ==== Proof.Data.lean ====
/-
  What the pipeline is told about this kernel: the arrays as the region finds them; after the body at each point the
  input blocks unchanged and — at the points of the second pass, where they are written back — the two output blocks
  at the column halves of max(A_t · S2, 0); and between the points the scratch buffers: before the first point anything,
  afterwards the first support and the joined weights in place and the first min(n, 25) slabs of the second support
  in place.
-/
import proofs.«123737_g71674414235792_cont_9to1c4b_416_14_alg».proof.Proof.Terms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The scratch buffers before point n. -/
def PhiS (c : Dev nD) : (n : ℕ) → n ≤ cfg0.N → sProp 𝕄
  | 0, _ => Pipeline.ΦA spec0 c
  | n + 1, _ => iprop(iprop(owns (c : Thread nD τ) supBuf fullShare (sup1 m c) ∗ (∃ d, ⌜SupFilled m c (min (n + 1) 25) d⌝ ∗ owns (c : Thread nD τ) projBuf fullShare d) ∗ owns (c : Thread nD τ) wBuf fullShare (wBoth m c)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n + 1 ≤ cfg0.N) :
    PhiS m c (n + 1) hn = iprop(iprop(owns (c : Thread nD τ) supBuf fullShare (sup1 m c) ∗ (∃ d, ⌜SupFilled m c (min (n + 1) 25) d⌝ ∗ owns (c : Thread nD τ) projBuf fullShare d) ∗ owns (c : Thread nD τ) wBuf fullShare (wBoth m c)) ∗ (∃ r, prngReg c r)) := rfl

theorem PhiS_pos (c : Dev nD) (n : ℕ) (h : n ≤ cfg0.N) (hz : n ≠ 0) :
    PhiS m c n h = iprop(iprop(owns (c : Thread nD τ) supBuf fullShare (sup1 m c) ∗ (∃ d, ⌜SupFilled m c (min n 25) d⌝ ∗ owns (c : Thread nD τ) projBuf fullShare d) ∗ owns (c : Thread nD τ) wBuf fullShare (wBoth m c)) ∗ (∃ r, prngReg c r)) := by
  cases n with
  | zero => exact absurd rfl hz
  | succ n => rfl

/-- The proof data of the one pipeline on core c. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => muBlk m c t
    | ⟨6, _⟩ => lvBlk m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = muBlk m c t := by dsimp only [dats]
theorem after6 (c : Dev nD) (t : Fin cfg0.N) : (dats m 0 c).after 6 t = lvBlk m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

end Cert.KernelIdeal.Hand

end
-- ==== Proof.SlabStep.lean ====
/-
  Index facts about the blocks and the row slabs; nothing here touches the arithmetic of the floats.

  The windows of x, W1, W2 and W3 have the constant index map (0, 0) and a block as large as the array, so entry y of
  the block read at any point is entry y of the array: on each axis the array coordinate is 0 · size + 1 · y = y.

  The second support is filled slab by slab.  The slab of point t (t < 25) is the unit-stride rectangle of 400 × 32
  entries at offset (400·t, 0).  If the rows below 400·t of a buffer already agree with the second support and the
  slab of point t is written over that rectangle, the rows below 400·(t + 1) agree: an entry inside the rectangle is
  (400·t + r, k) with r < 400, and row 400·t + r of the second support lies in slab (400·t + r) / 400 = t at row
  (400·t + r) % 400 = r; an entry outside it (its column is below 32 in any case) has its row below 400·t and kept its
  value.  Nothing is claimed with no slab in place, and with all 25 in place every row is below 10000 = 400 · 25, so the
  buffer is the second support.
-/
import proofs.«123737_g71674414235792_cont_9to1c4b_416_14_alg».proof.Proof.Terms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The index maps of the four whole-array windows are constantly (0, 0). -/
theorem whole_index1 : ∀ t : Fin cfg0.N, win0_1.index t 0 = 0 ∧ win0_1.index t 1 = 0 :=
  (by decide +kernel : ∀ t : Fin grid0.N, win0_1.index t 0 = 0 ∧ win0_1.index t 1 = 0)
theorem whole_index2 : ∀ t : Fin cfg0.N, win0_2.index t 0 = 0 ∧ win0_2.index t 1 = 0 :=
  (by decide +kernel : ∀ t : Fin grid0.N, win0_2.index t 0 = 0 ∧ win0_2.index t 1 = 0)
theorem whole_index3 : ∀ t : Fin cfg0.N, win0_3.index t 0 = 0 ∧ win0_3.index t 1 = 0 :=
  (by decide +kernel : ∀ t : Fin grid0.N, win0_3.index t 0 = 0 ∧ win0_3.index t 1 = 0)
theorem whole_index4 : ∀ t : Fin cfg0.N, win0_4.index t 0 = 0 ∧ win0_4.index t 1 = 0 :=
  (by decide +kernel : ∀ t : Fin grid0.N, win0_4.index t 0 = 0 ∧ win0_4.index t 1 = 0)

/-- The windows of x, W1, W2, W3 take their whole arrays at every point: the block read at a point is the array. -/
theorem iblk1_eq (c : Dev nD) (t : Fin cfg0.N) : (iblk m c 1 t : Vec F S10000x128 .f32) = xArr m c := by
  funext y
  unfold iblk xArr
  rw [View.read_apply]
  show V m c main_arg0 (((cfg0.win 1).blk t).view.emb y) = V m c main_arg0 y
  refine congrArg _ ?_
  obtain ⟨e0, e1⟩ := whole_index1 t
  funext a; apply Fin.ext
  match a with
  | ⟨0, _⟩ => show win0_1.index t (0 : Fin 2) * 10000 + 1 * (y 0).val = (y 0).val; omega
  | ⟨1, _⟩ => show win0_1.index t (1 : Fin 2) * 128 + 1 * (y 1).val = (y 1).val; omega
theorem iblk2_eq (c : Dev nD) (t : Fin cfg0.N) : (iblk m c 2 t : Vec F S128x32 .f32) = w1Arr m c := by
  funext y
  unfold iblk w1Arr
  rw [View.read_apply]
  show V m c main_arg2 (((cfg0.win 2).blk t).view.emb y) = V m c main_arg2 y
  refine congrArg _ ?_
  obtain ⟨e0, e1⟩ := whole_index2 t
  funext a; apply Fin.ext
  match a with
  | ⟨0, _⟩ => show win0_2.index t (0 : Fin 2) * 128 + 1 * (y 0).val = (y 0).val; omega
  | ⟨1, _⟩ => show win0_2.index t (1 : Fin 2) * 32 + 1 * (y 1).val = (y 1).val; omega
theorem iblk3_eq (c : Dev nD) (t : Fin cfg0.N) : (iblk m c 3 t : Vec F S32x16 .f32) = w2Arr m c := by
  funext y
  unfold iblk w2Arr
  rw [View.read_apply]
  show V m c main_arg3 (((cfg0.win 3).blk t).view.emb y) = V m c main_arg3 y
  refine congrArg _ ?_
  obtain ⟨e0, e1⟩ := whole_index3 t
  funext a; apply Fin.ext
  match a with
  | ⟨0, _⟩ => show win0_3.index t (0 : Fin 2) * 32 + 1 * (y 0).val = (y 0).val; omega
  | ⟨1, _⟩ => show win0_3.index t (1 : Fin 2) * 16 + 1 * (y 1).val = (y 1).val; omega
theorem iblk4_eq (c : Dev nD) (t : Fin cfg0.N) : (iblk m c 4 t : Vec F S32x16 .f32) = w3Arr m c := by
  funext y
  unfold iblk w3Arr
  rw [View.read_apply]
  show V m c main_arg4 (((cfg0.win 4).blk t).view.emb y) = V m c main_arg4 y
  refine congrArg _ ?_
  obtain ⟨e0, e1⟩ := whole_index4 t
  funext a; apply Fin.ext
  match a with
  | ⟨0, _⟩ => show win0_4.index t (0 : Fin 2) * 32 + 1 * (y 0).val = (y 0).val; omega
  | ⟨1, _⟩ => show win0_4.index t (1 : Fin 2) * 16 + 1 * (y 1).val = (y 1).val; omega

/-- No slab in place says nothing. -/
theorem supFilled_zero (c : Dev nD) (d : Vec F S10000x32 .f32) : SupFilled m c 0 d := by
  intro y hy
  omega

/-- Row 400·t + r, column k of the second support is entry (r, k) of the slab of point t. -/
theorem sup2_at (c : Dev nD) (t : Fin cfg0.N) (x : S400x32.Idx) (y : S10000x32.Idx)
    (h0 : (y 0).val = 400 * t.val + (x 0).val) (h1 : (y 1).val = (x 1).val) : sup2 m c y = slabOf m c t x := by
  have hx0 : (x 0).val < 400 := (x 0).isLt
  have ht : (⟨(y 0).val / 400, row_block_lt y⟩ : Fin cfg0.N) = t := Fin.ext (by show (y 0).val / 400 = t.val; omega)
  have hx : (ValueIdx.ix2 (⟨(y 0).val % 400, Nat.mod_lt _ (by decide)⟩ : Fin 400) (⟨(y 1).val, (y 1).isLt⟩ : Fin 32) : S400x32.Idx) = x := by
    funext a
    match a with
    | ⟨0, _⟩ => apply Fin.ext; show (y 0).val % 400 = (x 0).val; omega
    | ⟨1, _⟩ => apply Fin.ext; show (y 1).val = (x 1).val; omega
  unfold sup2
  rw [ht, hx]

/-- Writing the slab of point t (t < 25) over a buffer whose first t slabs are in place leaves the first t + 1 in place. -/
theorem supFilled_step (c : Dev nD) (t : Fin cfg0.N) (ht : t.val < 25) (d d' : Vec F S10000x32 .f32)
    (hd : SupFilled m c t.val d)
    (hw : SlabWritten (slabRect (grid0.coords t) ((fill_iff t).mpr ht)) (slabOf m c t) d d') :
    SupFilled m c (t.val + 1) d' := by
  intro y hy
  obtain ⟨o0, o1⟩ := slab_off t ht
  have hy1 : (y 1).val < 32 := (y 1).isLt
  by_cases hm : y ∈ (slabRect (grid0.coords t) ((fill_iff t).mpr ht)).set
  · obtain ⟨x, hx⟩ : ∃ x, (slabRect (grid0.coords t) ((fill_iff t).mpr ht)).emb x = y :=
      (slabRect (grid0.coords t) ((fill_iff t).mpr ht)).exists_idx_of_mem hm
    have e0 : k0_off1 (grid0.coords t) 0 + 1 * (x 0).val = (y 0).val := congrArg (fun i : S10000x32.Idx => (i 0).val) hx
    have e1 : k0_off1 (grid0.coords t) 1 + 1 * (x 1).val = (y 1).val := congrArg (fun i : S10000x32.Idx => (i 1).val) hx
    have hv : d' y = slabOf m c t x := by rw [← hx]; exact hw.1 x
    rw [hv]
    exact (sup2_at m c t x y (by omega) (by omega)).symm
  · rw [hw.2 y hm]
    apply hd
    have hnm := fun h => hm (Rect.mem_set_unit.mpr h)
    by_contra hlt
    apply hnm
    intro a
    match a with
    | ⟨0, _⟩ => show k0_off1 (grid0.coords t) 0 ≤ (y 0).val ∧ (y 0).val < k0_off1 (grid0.coords t) 0 + 400; omega
    | ⟨1, _⟩ => show k0_off1 (grid0.coords t) 1 ≤ (y 1).val ∧ (y 1).val < k0_off1 (grid0.coords t) 1 + 32; omega

/-- With all 25 slabs in place the buffer is the second support. -/
theorem supFilled_full (c : Dev nD) (d : Vec F S10000x32 .f32) (hd : SupFilled m c 25 d) : d = sup2 m c := by
  funext y
  have h : (y 0).val < 10000 := (y 0).isLt
  exact hd y (by omega)

end Cert.KernelIdeal.Hand

end
-- ==== Proof.RunFirst.lean ====
/-
  The body at the first point of the grid.  The first guarded part forms the first support x · W1 and stores it whole,
  then copies W2 into columns 0 … 15 and W3 into columns 16 … 31 of the joined weights.  The second guarded part then
  reads both back (it reads what was just stored) and overwrites rows 0 … 399 of the second support with
  max(A · (x · W1), 0) · [W2 | W3].  The output blocks are left as they were.
-/
import proofs.«123737_g71674414235792_cont_9to1c4b_416_14_alg».proof.Proof.Terms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz'' : (![0, 0] : Fin 2 → Nat) = fun _ => 0 := by funext a; match a with | ⟨0, _⟩ => rfl | ⟨1, _⟩ => rfl

set_option maxHeartbeats 2000000 in
theorem runFirst (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S32x16 .f32) (harg6 : arg6.IsWhole) (arg7 : Memref sig .tc .vmem S400x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x32 .f32) (harg10 : arg10.IsWhole) (arg11 : Memref sig .tc .vmem S32x32 .f32) (harg11 : arg11.IsWhole)
    (hc0 : condFirst i) (hc1 : condFill i) (hc2 : ¬condEmit i)
    (x0 : Vec F S400x10000 .f32) (x1 : Vec F S10000x128 .f32) (x2 : Vec F S128x32 .f32) (x3 : Vec F S32x16 .f32) (x4 : Vec F S32x16 .f32)
    (d5 d6 : Vec F S400x16 .f32) (xs0 ds1 : Vec F S10000x32 .f32) (xs2 : Vec F S32x32 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare xs0 ∗ owns (c : Thread nD τ) arg10 fullShare ds1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare (k0_pay1 x1 x2) ∗ (∃ d', ⌜SlabWritten (slabRect i hc1) (k0_pay4 x0 (k0_pay1 x1 x2) (wCat x3 x4)) ds1 d'⌝ ∗ owns (c : Thread nD τ) arg10 fullShare d') ∗ owns (c : Thread nD τ) arg11 fullShare (wCat x3 x4)) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  have e0 : View.readAt (Elt F) arg2.view (Rect.unit (s := S400x10000) ![0, 0] S400x10000.size inb_S400x10000_S400x10000_0_0).toLoadRect (harg2.unread x0) = x0 := by
    rw [View.readAt_eq_ld, harg2.read_unread, View.ld_unit_zero (S := S400x10000) zz'']
  have e3 : View.readAt (Elt F) arg3.view (Rect.unit (s := S10000x128) ![0, 0] S10000x128.size inb_S10000x128_S10000x128_0_0).toLoadRect (harg3.unread x1) = x1 := by
    rw [View.readAt_eq_ld, harg3.read_unread, View.ld_unit_zero (S := S10000x128) zz'']
  have e4 : View.readAt (Elt F) arg4.view (Rect.unit (s := S128x32) ![0, 0] S128x32.size inb_S128x32_S128x32_0_0).toLoadRect (harg4.unread x2) = x2 := by
    rw [View.readAt_eq_ld, harg4.read_unread, View.ld_unit_zero (S := S128x32) zz'']
  have e5 : View.readAt (Elt F) arg5.view (Rect.unit (s := S32x16) ![0, 0] S32x16.size inb_S32x16_S32x16_0_0).toLoadRect (harg5.unread x3) = x3 := by
    rw [View.readAt_eq_ld, harg5.read_unread, View.ld_unit_zero (S := S32x16) zz'']
  have e6 : View.readAt (Elt F) arg6.view (Rect.unit (s := S32x16) ![0, 0] S32x16.size inb_S32x16_S32x16_0_0).toLoadRect (harg6.unread x4) = x4 := by
    rw [View.readAt_eq_ld, harg6.read_unread, View.ld_unit_zero (S := S32x16) zz'']
  have e9 : arg9.view.readCov [(⟨Rect.unit (s := S10000x32) ![0, 0] S10000x32.size inb_S10000x32_S10000x32_0_0, k0_pay1 x1 x2⟩ : View.Piece (Elt F) S10000x32 .f32)]
      (Rect.unit (s := S10000x32) ![0, 0] S10000x32.size inb_S10000x32_S10000x32_0_0).toLoadRect = k0_pay1 x1 x2 :=
    View.readCov_cons_toLoadRect arg9.view _ _ []
  have e11 : arg11.view.readCov (wPieces x3 x4) (Rect.unit (s := S32x32) ![0, 0] S32x32.size inb_S32x32_S32x32_0_0).toLoadRect = wCat x3 x4 := by
    rw [View.readCov_eq_canon']
    exact View.ld_unit_zero (S := S32x32) zz'' inb_S32x32_S32x32_0_0 (View.canon (wPieces x3 x4))
  sl_exec (disch := first | exact hc0 | exact hc1 | exact hc2)
  sl_step
  sl_unfold_run_names
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; swap; · iexact HS0
    ipureintro
    try simp only [e3, e4]
    exact (View.read_writes_eq_canon _ _ _ (fun y => ⟨_, List.mem_singleton_self _, View.mem_set_unit_zero zz'' inb_S10000x32_S10000x32_0_0 y⟩)).trans (View.canon_unit_zero zz'' inb_S10000x32_S10000x32_0_0 _)
  isplitl [HS1]
  · iexists _; isplitr; swap
    · iexists _; isplitr; swap; · iexact HS1
      ipureintro; rfl
    ipureintro
    try simp only [e0, e3, e4, e5, e6]
    try simp only [e9, e11]
    exact ⟨fun x => View.read_writes_cons_emb _ _ _ _ [] x,
      fun y hy => (View.read_writes_apply_of_forall_not_mem _ _ y _ (fun p hp => by
        rw [List.mem_singleton] at hp; subst hp; exact hy)).trans (congrFun (harg10.read_unread ds1) y)⟩
  iexists _; isplitr; swap; · iexact HS2
  ipureintro
  try simp only [e5, e6]
  exact View.read_writes_eq_canon _ _ _ (wPieces_cover x3 x4)

end Cert.KernelIdeal.Hand

end
-- ==== Proof.RunFill.lean ====
/-
  The body at a point of the first pass other than the first point.  Only the second guarded part runs: it loads the
  adjacency block, the first support and the joined weights, and overwrites its 400 rows of the second support with
  max(A · S1, 0) · W; every other buffer is left as it was.
-/
import proofs.«123737_g71674414235792_cont_9to1c4b_416_14_alg».proof.Proof.Terms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz : (![0, 0] : Fin 2 → Nat) = fun _ => 0 := by funext a; match a with | ⟨0, _⟩ => rfl | ⟨1, _⟩ => rfl

set_option maxHeartbeats 1000000 in
theorem runFill (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S32x16 .f32) (harg6 : arg6.IsWhole) (arg7 : Memref sig .tc .vmem S400x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x32 .f32) (harg10 : arg10.IsWhole) (arg11 : Memref sig .tc .vmem S32x32 .f32) (harg11 : arg11.IsWhole)
    (hc0 : ¬condFirst i) (hc1 : condFill i) (hc2 : ¬condEmit i)
    (x0 : Vec F S400x10000 .f32) (x1 : Vec F S10000x128 .f32) (x2 : Vec F S128x32 .f32) (x3 : Vec F S32x16 .f32) (x4 : Vec F S32x16 .f32)
    (d5 d6 : Vec F S400x16 .f32) (xs0 ds1 : Vec F S10000x32 .f32) (xs2 : Vec F S32x32 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare xs0 ∗ owns (c : Thread nD τ) arg10 fullShare ds1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare xs0 ∗ (∃ d', ⌜SlabWritten (slabRect i hc1) (k0_pay4 x0 xs0 xs2) ds1 d'⌝ ∗ owns (c : Thread nD τ) arg10 fullShare d') ∗ owns (c : Thread nD τ) arg11 fullShare xs2) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  have e0 : View.readAt (Elt F) arg2.view (Rect.unit (s := S400x10000) ![0, 0] S400x10000.size inb_S400x10000_S400x10000_0_0).toLoadRect (harg2.unread x0) = x0 := by
    rw [View.readAt_eq_ld, harg2.read_unread, View.ld_unit_zero (S := S400x10000) zz]
  have e9 : View.readAt (Elt F) arg9.view (Rect.unit (s := S10000x32) ![0, 0] S10000x32.size inb_S10000x32_S10000x32_0_0).toLoadRect (harg9.unread xs0) = xs0 := by
    rw [View.readAt_eq_ld, harg9.read_unread, View.ld_unit_zero (S := S10000x32) zz]
  have e11 : View.readAt (Elt F) arg11.view (Rect.unit (s := S32x32) ![0, 0] S32x32.size inb_S32x32_S32x32_0_0).toLoadRect (harg11.unread xs2) = xs2 := by
    rw [View.readAt_eq_ld, harg11.read_unread, View.ld_unit_zero (S := S32x32) zz]
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [HS0]
  · iexists _; isplitr; · ipureintro; exact harg9.read_unread _
    iexact HS0
  isplitl [HS1]
  · iexists _; isplitr; swap
    · iexists _; isplitr; swap; · iexact HS1
      ipureintro; rfl
    ipureintro
    try simp only [e0, e9, e11]
    exact ⟨fun x => View.read_writes_cons_emb _ _ _ _ [] x,
      fun y hy => (View.read_writes_apply_of_forall_not_mem _ _ y _ (fun p hp => by
        rw [List.mem_singleton] at hp; subst hp; exact hy)).trans (congrFun (harg10.read_unread ds1) y)⟩
  iexists _; isplitr; · ipureintro; exact harg11.read_unread _
  iexact HS2

end Cert.KernelIdeal.Hand

end
-- ==== Proof.RunEmit.lean ====
/-
  The body at a point of the second pass.  Only the third guarded part runs: it loads the adjacency block and the whole
  second support, forms max(A · S2, 0), and stores its columns 0 … 15 into the first output block and its columns
  16 … 31 into the second; the scratch buffers are left as they were.
-/
import proofs.«123737_g71674414235792_cont_9to1c4b_416_14_alg».proof.Proof.Terms

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zz' : (![0, 0] : Fin 2 → Nat) = fun _ => 0 := by funext a; match a with | ⟨0, _⟩ => rfl | ⟨1, _⟩ => rfl

set_option maxHeartbeats 1000000 in
theorem runEmit (c : Dev nD) (i : grid0.Coords) (arg2 : Memref sig .tc .vmem S400x10000 .f32) (harg2 : arg2.IsWhole) (arg3 : Memref sig .tc .vmem S10000x128 .f32) (harg3 : arg3.IsWhole) (arg4 : Memref sig .tc .vmem S128x32 .f32) (harg4 : arg4.IsWhole) (arg5 : Memref sig .tc .vmem S32x16 .f32) (harg5 : arg5.IsWhole) (arg6 : Memref sig .tc .vmem S32x16 .f32) (harg6 : arg6.IsWhole) (arg7 : Memref sig .tc .vmem S400x16 .f32) (harg7 : arg7.IsWhole) (arg8 : Memref sig .tc .vmem S400x16 .f32) (harg8 : arg8.IsWhole) (arg9 : Memref sig .tc .vmem S10000x32 .f32) (harg9 : arg9.IsWhole) (arg10 : Memref sig .tc .vmem S10000x32 .f32) (harg10 : arg10.IsWhole) (arg11 : Memref sig .tc .vmem S32x32 .f32) (harg11 : arg11.IsWhole)
    (hc0 : ¬condFirst i) (hc1 : ¬condFill i) (hc2 : condEmit i)
    (x0 : Vec F S400x10000 .f32) (x1 : Vec F S10000x128 .f32) (x2 : Vec F S128x32 .f32) (x3 : Vec F S32x16 .f32) (x4 : Vec F S32x16 .f32)
    (d5 d6 : Vec F S400x16 .f32) (xs0 ds1 : Vec F S10000x32 .f32) (xs2 : Vec F S32x32 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare d5 ∗ owns (c : Thread nD τ) arg8 fullShare d6 ∗ owns (c : Thread nD τ) arg9 fullShare xs0 ∗ owns (c : Thread nD τ) arg10 fullShare ds1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay6 x0 ds1) ∗ owns (c : Thread nD τ) arg8 fullShare (k0_pay7 x0 ds1) ∗ owns (c : Thread nD τ) arg9 fullShare xs0 ∗ owns (c : Thread nD τ) arg10 fullShare ds1 ∗ owns (c : Thread nD τ) arg11 fullShare xs2) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10 arg11 harg11) K := by
  simp only [cc0__gcn_body_eq_skeleton]; unfold cc0__gcn_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs0; obtain rfl := harg10.eq_unread hfs1; obtain rfl := harg11.eq_unread hfs2
  have e0 : View.readAt (Elt F) arg2.view (Rect.unit (s := S400x10000) ![0, 0] S400x10000.size inb_S400x10000_S400x10000_0_0).toLoadRect (harg2.unread x0) = x0 := by
    rw [View.readAt_eq_ld, harg2.read_unread, View.ld_unit_zero (S := S400x10000) zz']
  have e10 : View.readAt (Elt F) arg10.view (Rect.unit (s := S10000x32) ![0, 0] S10000x32.size inb_S10000x32_S10000x32_0_0).toLoadRect (harg10.unread ds1) = ds1 := by
    rw [View.readAt_eq_ld, harg10.read_unread, View.ld_unit_zero (S := S10000x32) zz']
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    try simp only [e0, e10]
    funext y
    obtain ⟨x, rfl⟩ : ∃ x, (Rect.unit (s := S400x16) ![0, 0] S400x16.size inb_S400x16_S400x16_0_0).emb x = y :=
      (Rect.unit (s := S400x16) ![0, 0] S400x16.size inb_S400x16_S400x16_0_0).exists_idx_of_mem (View.mem_set_unit_zero zz' _ y)
    rw [View.read_writes_cons_emb]
    exact congrFun (View.ld_unit_zero (Val := Elt F) (e := .f32) (S := S400x16) zz' inb_S400x16_S400x16_0_0 (k0_pay6 x0 ds1)).symm x
  isplitl [H6]
  · iexists _; isplitr; swap; · iexact H6
    ipureintro
    try simp only [e0, e10]
    funext y
    obtain ⟨x, rfl⟩ : ∃ x, (Rect.unit (s := S400x16) ![0, 0] S400x16.size inb_S400x16_S400x16_0_0).emb x = y :=
      (Rect.unit (s := S400x16) ![0, 0] S400x16.size inb_S400x16_S400x16_0_0).exists_idx_of_mem (View.mem_set_unit_zero zz' _ y)
    rw [View.read_writes_cons_emb]
    exact congrFun (View.ld_unit_zero (Val := Elt F) (e := .f32) (S := S400x16) zz' inb_S400x16_S400x16_0_0 (k0_pay7 x0 ds1)).symm x
  isplitl [HS0]
  · iexists _; isplitr; · ipureintro; exact harg9.read_unread _
    iexact HS0
  isplitl [HS1]
  · iexists _; isplitr; · ipureintro; exact harg10.read_unread _
    iexact HS1
  iexists _; isplitr; · ipureintro; exact harg11.read_unread _
  iexact HS2

end Cert.KernelIdeal.Hand

end
-- ==== Proof.Body.lean ====
/-
  The body keeps the scratch invariant, point by point, and the whole region runs.

  At point 0 the scratch buffers hold anything; the body leaves the first support and the joined weights in place and
  slab 0 of the second support.  At a point 0 < t < 25 it finds the first t slabs in place and adds slab t.  At a point
  t ≥ 25 all 25 slabs are in place, so the buffer IS the second support, and the body stores the two output blocks
  computed from it.  On the first pass the output windows are neither stored nor written back, so they are handed back
  as found; on the second pass they are stored and written back.  The argument arrays are only ever read.
-/
import proofs.«123737_g71674414235792_cont_9to1c4b_416_14_alg».proof.Proof.Data
import proofs.«123737_g71674414235792_cont_9to1c4b_416_14_alg».proof.Proof.SlabStep
import proofs.«123737_g71674414235792_cont_9to1c4b_416_14_alg».proof.Proof.RunFirst
import proofs.«123737_g71674414235792_cont_9to1c4b_416_14_alg».proof.Proof.RunFill
import proofs.«123737_g71674414235792_cont_9to1c4b_416_14_alg».proof.Proof.RunEmit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem slabOf_eq (c : Dev nD) (t : Fin cfg0.N) :
    slabOf m c t = k0_pay4 (iblk m c 0 t) (sup1 m c) (wBoth m c) := rfl
theorem slabOf_eq' (c : Dev nD) (t : Fin cfg0.N) :
    slabOf m c t = k0_pay4 (iblk m c 0 t) (k0_pay1 (xArr m c) (w1Arr m c)) (wCat (w2Arr m c) (w3Arr m c)) := rfl
theorem sup1_eq (c : Dev nD) : sup1 m c = k0_pay1 (xArr m c) (w1Arr m c) := rfl
theorem wBoth_eq (c : Dev nD) : wBoth m c = wCat (w2Arr m c) (w3Arr m c) := rfl
theorem muBlk_eq (c : Dev nD) (t : Fin cfg0.N) : muBlk m c t = k0_pay6 (iblk m c 0 t) (sup2 m c) := rfl
theorem lvBlk_eq (c : Dev nD) (t : Fin cfg0.N) : lvBlk m c t = k0_pay7 (iblk m c 0 t) (sup2 m c) := rfl

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, PhiS_succ]
  have hN : t.val < 50 := lt_of_lt_of_eq t.isLt (show cfg0.N = 50 from N_0)
  rw [show (dats m 0 c).leavesExact 0 t = owns (c : Thread nD τ) (stg0 t) fullShare ((dats m 0 c).after 0 t) from by
    unfold Dat.leavesExact; rw [live0 t], after0]
  rw [show (dats m 0 c).leavesExact 1 t = owns (c : Thread nD τ) (stg1 t) fullShare ((dats m 0 c).after 1 t) from by
    unfold Dat.leavesExact; rw [live1 t], after1]
  rw [show (dats m 0 c).leavesExact 2 t = owns (c : Thread nD τ) (stg2 t) fullShare ((dats m 0 c).after 2 t) from by
    unfold Dat.leavesExact; rw [live2 t], after2]
  rw [show (dats m 0 c).leavesExact 3 t = owns (c : Thread nD τ) (stg3 t) fullShare ((dats m 0 c).after 3 t) from by
    unfold Dat.leavesExact; rw [live3 t], after3]
  rw [show (dats m 0 c).leavesExact 4 t = owns (c : Thread nD τ) (stg4 t) fullShare ((dats m 0 c).after 4 t) from by
    unfold Dat.leavesExact; rw [live4 t], after4]
  rw [iblk1_eq m c t, iblk2_eq m c t, iblk3_eq m c t, iblk4_eq m c t]
  by_cases hlt : t.val < 25
  · have hi5 : cfg0.idle 5 (grid0.coords t) = true := by rw [idle5_eq]; exact decide_eq_true hlt
    have hi6 : cfg0.idle 6 (grid0.coords t) = true := by rw [idle6_eq]; exact decide_eq_true hlt
    have hf5 : (cfg0.win 5).flush t = false := by rw [flush5_eq]; exact decide_eq_false (by omega)
    have hf6 : (cfg0.win 6).flush t = false := by rw [flush6_eq]; exact decide_eq_false (by omega)
    rw [(dats m 0 c).leavesExact_idle 5 t hi5 hf5, (dats m 0 c).leavesExact_idle 6 t hi6 hf6]
    rw [Nat.min_eq_left (show t.val + 1 ≤ 25 by omega)]
    by_cases hz : t.val = 0
    · rw [Phi_castSucc m c t, PhiS_zero m c _ _ hz, PhiA_eq]
      iintro ⟨⟨⟨⟨%e0, HS0⟩, ⟨%e1, HS1⟩, ⟨%e2, HS2⟩⟩, Hg⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) (stg0 t) (hstg0 t) (stg1 t) (hstg1 t) (stg2 t) (hstg2 t) (stg3 t) (hstg3 t) (stg4 t) (hstg4 t) (stg5 t) (hstg5 t) (stg6 t) (hstg6 t) supBuf (Memref.isWhole_whole _) projBuf (Memref.isWhole_whole _) wBuf (Memref.isWhole_whole _)
        ((first_iff t).mpr hz) ((fill_iff t).mpr hlt) (fun h => absurd ((emit_iff t).mp h) (by omega))
        (iblk m c 0 t) (xArr m c) (w1Arr m c) (w2Arr m c) (w3Arr m c) _ _ e0 e1 e2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, ⟨%d', %hw, HS1⟩, HS2⟩
      isplitl [HS0 HS1 HS2 Hg]
      · isplitl [HS0 HS1 HS2]
        · isplitl [HS0]; · iexact HS0
          isplitl [HS1]
          · iexists d'; isplitr
            · ipureintro
              exact supFilled_step m c t hlt e1 d' (by rw [hz]; exact supFilled_zero m c e1) hw
            iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · rw [Phi_castSucc m c t, PhiS_pos m c _ _ hz, Nat.min_eq_left (show t.val ≤ 25 by omega)]
      iintro ⟨⟨⟨HS0, ⟨%e1, %hd, HS1⟩, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (runFill c (grid0.coords t) (stg0 t) (hstg0 t) (stg1 t) (hstg1 t) (stg2 t) (hstg2 t) (stg3 t) (hstg3 t) (stg4 t) (hstg4 t) (stg5 t) (hstg5 t) (stg6 t) (hstg6 t) supBuf (Memref.isWhole_whole _) projBuf (Memref.isWhole_whole _) wBuf (Memref.isWhole_whole _)
        (fun h => hz ((first_iff t).mp h)) ((fill_iff t).mpr hlt) (fun h => absurd ((emit_iff t).mp h) (by omega))
        (iblk m c 0 t) (xArr m c) (w1Arr m c) (w2Arr m c) (w3Arr m c) _ _ (sup1 m c) e1 (wBoth m c) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, ⟨%d', %hw, HS1⟩, HS2⟩
      isplitl [HS0 HS1 HS2 Hg]
      · isplitl [HS0 HS1 HS2]
        · isplitl [HS0]; · iexact HS0
          isplitl [HS1]
          · iexists d'; isplitr
            · ipureintro
              exact supFilled_step m c t hlt e1 d' hd hw
            iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · have hge : 25 ≤ t.val := by omega
    have hi5 : cfg0.idle 5 (grid0.coords t) = false := by rw [idle5_eq]; exact decide_eq_false hlt
    have hi6 : cfg0.idle 6 (grid0.coords t) = false := by rw [idle6_eq]; exact decide_eq_false hlt
    rw [show (dats m 0 c).leavesExact 5 t = owns (c : Thread nD τ) (stg5 t) fullShare ((dats m 0 c).after 5 t) from by
      unfold Dat.leavesExact; rw [hi5], after5]
    rw [show (dats m 0 c).leavesExact 6 t = owns (c : Thread nD τ) (stg6 t) fullShare ((dats m 0 c).after 6 t) from by
      unfold Dat.leavesExact; rw [hi6], after6]
    rw [Nat.min_eq_right (show 25 ≤ t.val + 1 by omega)]
    rw [Phi_castSucc m c t, PhiS_pos m c _ _ (by omega), Nat.min_eq_right hge]
    iintro ⟨⟨⟨HS0, ⟨%e1, %hd, HS1⟩, HS2⟩, Hg⟩, Ho, ⟨%d0, H0⟩, ⟨%d1, H1⟩, ⟨%d2, H2⟩, ⟨%d3, H3⟩, ⟨%d4, H4⟩, ⟨%d5, H5⟩, ⟨%d6, H6⟩⟩
    obtain rfl := supFilled_full m c e1 hd
    iapply (runEmit c (grid0.coords t) (stg0 t) (hstg0 t) (stg1 t) (hstg1 t) (stg2 t) (hstg2 t) (stg3 t) (hstg3 t) (stg4 t) (hstg4 t) (stg5 t) (hstg5 t) (stg6 t) (hstg6 t) supBuf (Memref.isWhole_whole _) projBuf (Memref.isWhole_whole _) wBuf (Memref.isWhole_whole _)
      (fun h => absurd ((first_iff t).mp h) (by omega)) (fun h => absurd ((fill_iff t).mp h) (by omega)) ((emit_iff t).mpr hge)
      (iblk m c 0 t) (xArr m c) (w1Arr m c) (w2Arr m c) (w3Arr m c) _ _ (sup1 m c) (sup2 m c) (wBoth m c) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    iintro ⟨H0, H1, H2, H3, H4, H5, H6, HS0, HS1, HS2⟩
    isplitl [HS0 HS1 HS2 Hg]
    · isplitl [HS0 HS1 HS2]
      · isplitl [HS0]; · iexact HS0
        isplitl [HS1]
        · iexists (sup2 m c); isplitr
          · ipureintro; exact fun y _ => rfl
          iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point the scratch buffers hold anything. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point their contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 50 := N_0; omega), PhiA_eq]
  iintro ⟨⟨HS0, ⟨%d, -, HS1⟩, HS2⟩, Hg⟩
  isplitl [HS0 HS1 HS2]
  · isplitl [HS0]; · iexists _; iexact HS0
    isplitl [HS1]; · iexists _; iexact HS1
    iexists _; iexact HS2
  iexact Hg

/-- Every weakly fair execution of the program terminates, and every final state has each array of the pipeline at what
    the write-backs leave and every other unscoped buffer as launched. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Hand

end
-- ==== Proof.LibDotPlain.lean ====
/-
  The plain product of two matrices, read at one entry over the extended reals.

  A plain product of an M × K matrix by a K × N matrix has no batch axis; the left operand is contracted on its
  axis 1 and the right operand on its axis 0.  For the output entry (i, j) and the contraction position k, the left
  operand is read at (i, k) — its index keeps the output's row on axis 0 and takes the contraction position on
  axis 1 — and the right operand is read at (k, j) — its index takes the contraction position on axis 0 and keeps
  the output's column on axis 1.  The contraction has one axis, of extent K, so the sum over its index set is the sum
  over k < K.  Hence entry (i, j) of the product is Σₖ l(i, k) · r(k, j), both for the product a host program
  computes and for the product a kernel accumulates into a zero accumulator.  All of this holds for every M, K, N.
-/
import Idealize.ShloMosaic.PureOps.Ideal.Laws
import Idealize.ShloMosaic.Lib.ValueIdx

noncomputable section

namespace Cert.LibDot

open Idealize.ShloMosaic Idealize.ShloMosaic.ValueIdx

variable (M K N : Nat)

/-- Axis 0 of the left operand's index is the output's row. -/
theorem lhs_plain_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- Axis 1 of the left operand's index is the contraction position. -/
theorem lhs_plain_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- Axis 0 of the right operand's index is the contraction position. -/
theorem rhs_plain_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- Axis 1 of the right operand's index is the output's column. -/
theorem rhs_plain_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- At output entry (i, j) and contraction position k the left operand is read at (i, k). -/
theorem lhsIdx_plain (i : Fin M) (j : Fin N) (k : Fin K) :
    (DotDims.plain M K N).lhsIdx (ix2 i j) ((contrEquiv1 (DotDims.plain M K N) K rfl rfl).symm k) = ix2 i k :=
  funext fun a => Fin.ext (by
    have hk := contrEquiv1_symm_val (DotDims.plain M K N) K rfl rfl k
    match a with
    | ⟨0, _⟩ => exact lhs_plain_0 M K N _ _
    | ⟨1, _⟩ => exact (lhs_plain_1 M K N _ _).trans hk)

/-- At output entry (i, j) and contraction position k the right operand is read at (k, j). -/
theorem rhsIdx_plain (i : Fin M) (j : Fin N) (k : Fin K) :
    (DotDims.plain M K N).rhsIdx (ix2 i j) ((contrEquiv1 (DotDims.plain M K N) K rfl rfl).symm k) = ix2 k j :=
  funext fun a => Fin.ext (by
    have hk := contrEquiv1_symm_val (DotDims.plain M K N) K rfl rfl k
    match a with
    | ⟨0, _⟩ => exact (rhs_plain_0 M K N _ _).trans hk
    | ⟨1, _⟩ => exact rhs_plain_1 M K N _ _)

/-- The sum over the plain product's contraction index set of the operands' products at entry (i, j) is
    Σₖ l(i, k) · r(k, j). -/
theorem sum_plain (l : (⟨2, ![M, K]⟩ : Shape).Idx → EReal) (r : (⟨2, ![K, N]⟩ : Shape).Idx → EReal)
    (i : Fin M) (j : Fin N) :
    (∑ q : (DotDims.plain M K N).contr.Idx,
        l ((DotDims.plain M K N).lhsIdx (ix2 i j) q) * r ((DotDims.plain M K N).rhsIdx (ix2 i j) q))
      = ∑ k : Fin K, l (ix2 i k) * r (ix2 k j) := by
  rw [← Equiv.sum_comp (contrEquiv1 (DotDims.plain M K N) K rfl rfl).symm]
  refine Finset.sum_congr rfl fun k _ => ?_
  rw [lhsIdx_plain, rhsIdx_plain]

/-- Entry (i, j) of a host program's plain product: Σₖ l(i, k) · r(k, j). -/
theorem dg_plain {φ₁ φ₂ : FTy} (l : FVec Ideal ⟨2, ![M, K]⟩ φ₁) (r : FVec Ideal ⟨2, ![K, N]⟩ φ₂)
    (i : Fin M) (j : Fin N) :
    Host.dotGeneral (F := Ideal) (DotDims.plain M K N) none l r (ix2 i j)
      = ∑ k : Fin K, l (ix2 i k) * r (ix2 k j) :=
  (Ideal.dotGeneral_apply (DotDims.plain M K N) none .single l r _).trans (sum_plain M K N l r i j)

/-- Entry (i, j) of a kernel's plain product into a zero accumulator: Σₖ l(i, k) · r(k, j). -/
theorem mm_plain {φ₁ φ₂ : FTy} (l : FVec Ideal ⟨2, ![M, K]⟩ φ₁) (r : FVec Ideal ⟨2, ![K, N]⟩ φ₂)
    (i : Fin M) (j : Fin N) :
    matmul (DotDims.plain M K N) none l r (constant (F := Ideal) ⟨2, ![M, N]⟩ .f32 0x00000000#32) (ix2 i j)
      = ∑ k : Fin K, l (ix2 i k) * r (ix2 k j) :=
  (Ideal.matmul_constant_zero_apply (DotDims.plain M K N) none l r _).trans (sum_plain M K N l r i j)

end Cert.LibDot

end
-- ==== Proof.PayloadAt.lean ====
/-
  The kernel body's pure values, read at one entry over the extended reals.

  The first support at (n, l) is Σ_d X(n, d) · W(d, l): a plain product into a zero accumulator, then a shape cast
  between equal shapes, which is the identity.  The rectified product at (p, j) is max(Σ_k A(p, k) · S(k, j), 0):
  the entrywise maximum with a splat of the zero word, which is the real 0.  The slab at (p, j) is the plain product
  of the rectified product by the weights, Σ_l max(Σ_n A(p, n) · S(n, l), 0) · W(l, j).  The two output blocks are
  the column halves of the rectified product: a unit-stride slice from column 0, respectively 16, reads the source
  at the same row and at the column moved by the offset.  The joined weights are the canonical contents after two
  stores into a 32 × 32 buffer: columns 0 … 15 hold W2 and columns 16 … 31 hold W3 (each stored through a shape
  cast between equal shapes); an entry with column below 16 is outside the later store's rectangle and is the image
  of (l, j) under the earlier store's embedding, an entry with column 16 + j is the image of (l, j) under the later
  store's embedding.
-/
import proofs.«123737_g71674414235792_cont_9to1c4b_416_14_alg».proof.Proof.Terms
import proofs.«123737_g71674414235792_cont_9to1c4b_416_14_alg».proof.Proof.LibDotPlain
import Idealize.ShloMosaic.PureOps.Ideal.Laws
import Idealize.ShloMosaic.Lib.ValueLayout
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.ValueIdx

/-- The three contraction records are plain products. -/
theorem d0_eq : dot_S10000x128_S128x32_S10000x32_1_0_0_1_n_n = DotDims.plain 10000 128 32 := rfl
theorem d1_eq : dot_S400x10000_S10000x32_S400x32_1_0_0_1_n_n = DotDims.plain 400 10000 32 := rfl
theorem d2_eq : dot_S400x32_S32x32_S400x32_1_0_0_1_n_n = DotDims.plain 400 32 32 := rfl

/-- Entry (n, l) of the first support: Σ_d X(n, d) · W(d, l). -/
theorem pay1_at (X : Vec Ideal S10000x128 .f32) (W : Vec Ideal S128x32 .f32) (n : Fin 10000) (l : Fin 32) :
    k0_pay1 (F := Ideal) X W (ix2 n l) = ∑ d : Fin 128, X (ix2 n d) * W (ix2 d l) := by
  unfold k0_pay1
  rw [shapeCast_self, d0_eq]
  exact Cert.LibDot.mm_plain 10000 128 32 X W n l

/-- Entry (p, j) of max(A · S, 0). -/
theorem pay5_at (A : Vec Ideal S400x10000 .f32) (S : Vec Ideal S10000x32 .f32) (p : Fin 400) (j : Fin 32) :
    k0_pay5 (F := Ideal) A S (ix2 p j) = max (∑ k : Fin 10000, A (ix2 p k) * S (ix2 k j)) 0 := by
  unfold k0_pay5
  rw [maximumf_apply, d1_eq, broadcast_apply]
  rw [show Scalar.ofBits (F := Ideal) .f32 0x00000000#32 = 0 from Ideal.ofBits_zero_f32]
  exact congrArg (fun z => max z 0) (Cert.LibDot.mm_plain 400 10000 32 A S p j)

/-- Entry (p, j) of max(A · S, 0) · W. -/
theorem pay4_at (A : Vec Ideal S400x10000 .f32) (S : Vec Ideal S10000x32 .f32) (W : Vec Ideal S32x32 .f32) (p : Fin 400) (j : Fin 32) :
    k0_pay4 (F := Ideal) A S W (ix2 p j)
      = ∑ l : Fin 32, max (∑ n : Fin 10000, A (ix2 p n) * S (ix2 n l)) 0 * W (ix2 l j) := by
  unfold k0_pay4
  rw [shapeCast_self, d2_eq]
  refine (Cert.LibDot.mm_plain 400 32 32 (k0_pay5 (F := Ideal) A S) W p j).trans ?_
  exact Finset.sum_congr rfl fun l _ => congrArg (fun z => z * W (ix2 l j)) (pay5_at A S p l)

/-- The first output block is columns 0 … 15 of max(A · S, 0), -/
theorem pay6_at (A : Vec Ideal S400x10000 .f32) (S : Vec Ideal S10000x32 .f32) (p : Fin 400) (q : Fin 16) :
    k0_pay6 (F := Ideal) A S (ix2 p q) = k0_pay5 (F := Ideal) A S (ix2 p (⟨q.val, by omega⟩ : Fin 32)) := by
  unfold k0_pay6
  exact slice2_axis1_apply 0 (k0_pay5 (F := Ideal) A S) slices_S400x32_o0_0_S400x16 p q _ (Nat.zero_add _).symm

/-- the second columns 16 … 31. -/
theorem pay7_at (A : Vec Ideal S400x10000 .f32) (S : Vec Ideal S10000x32 .f32) (p : Fin 400) (q : Fin 16) :
    k0_pay7 (F := Ideal) A S (ix2 p q) = k0_pay5 (F := Ideal) A S (ix2 p (⟨q.val + 16, by omega⟩ : Fin 32)) := by
  unfold k0_pay7
  exact slice2_axis1_apply 16 (k0_pay5 (F := Ideal) A S) slices_S400x32_o0_16_S400x16 p q _ (Nat.add_comm _ _)

/-- Columns 0 … 15 of the joined weights are W2, -/
theorem wCat_left (W2 W3 : Vec Ideal S32x16 .f32) (l : Fin 32) (j : Fin 16) :
    wCat (F := Ideal) W2 W3 (ix2 l (⟨j.val, by omega⟩ : Fin 32)) = W2 (ix2 l j) := by
  have hj : j.val < 16 := j.isLt
  -- an entry with column below 16 is outside the rectangle of columns 16 … 31
  have hnot : (ix2 l (⟨j.val, by omega⟩ : Fin 32) : S32x32.Idx)
      ∉ (Rect.unit (s := S32x32) ![0, 16] S32x16.size inb_S32x32_S32x16_0_16).set := by
    rw [Rect.mem_set_unit]
    intro h
    have h1 : 16 ≤ j.val := (h 1).1
    omega
  -- and is the image of (l, j) under the embedding of the rectangle of columns 0 … 15
  have hemb : (ix2 l (⟨j.val, by omega⟩ : Fin 32) : S32x32.Idx)
      = (Rect.unit (s := S32x32) ![0, 0] S32x16.size inb_S32x32_S32x16_0_0).emb (ix2 l j) := by
    funext a
    apply Fin.ext
    match a with
    | ⟨0, _⟩ => show l.val = 0 + 1 * l.val; omega
    | ⟨1, _⟩ => show j.val = 0 + 1 * j.val; omega
  unfold wCat
  refine (View.canon_cons_of_not_mem
    (⟨Rect.unit (s := S32x32) ![0, 16] S32x16.size inb_S32x32_S32x16_0_16, k0_pay3 (F := Ideal) W3⟩ :
      View.Piece (Elt Ideal) S32x32 .f32)
    ([⟨Rect.unit (s := S32x32) ![0, 0] S32x16.size inb_S32x32_S32x16_0_0, k0_pay2 (F := Ideal) W2⟩] :
      List (View.Piece (Elt Ideal) S32x32 .f32)) hnot).trans ?_
  rw [hemb, View.canon_cons_emb]
  unfold k0_pay2
  rw [shapeCast_self]

/-- columns 16 … 31 are W3. -/
theorem wCat_right (W2 W3 : Vec Ideal S32x16 .f32) (l : Fin 32) (j : Fin 16) :
    wCat (F := Ideal) W2 W3 (ix2 l (⟨j.val + 16, by omega⟩ : Fin 32)) = W3 (ix2 l j) := by
  -- the entry (l, 16 + j) is the image of (l, j) under the embedding of the rectangle of columns 16 … 31
  have hemb : (ix2 l (⟨j.val + 16, by omega⟩ : Fin 32) : S32x32.Idx)
      = (Rect.unit (s := S32x32) ![0, 16] S32x16.size inb_S32x32_S32x16_0_16).emb (ix2 l j) := by
    funext a
    apply Fin.ext
    match a with
    | ⟨0, _⟩ => show l.val = 0 + 1 * l.val; omega
    | ⟨1, _⟩ => show j.val + 16 = 16 + 1 * j.val; omega
  unfold wCat
  show View.canon
    ((⟨Rect.unit (s := S32x32) ![0, 16] S32x16.size inb_S32x32_S32x16_0_16, k0_pay3 (F := Ideal) W3⟩ :
        View.Piece (Elt Ideal) S32x32 .f32) ::
      ([⟨Rect.unit (s := S32x32) ![0, 0] S32x16.size inb_S32x32_S32x16_0_0, k0_pay2 (F := Ideal) W2⟩] :
        List (View.Piece (Elt Ideal) S32x32 .f32))) _ = _
  rw [hemb, View.canon_cons_emb]
  unfold k0_pay3
  rw [shapeCast_self]

end Cert.KernelIdeal.Hand

end
-- ==== Proof.GcnSpec.lean ====
/-
  The two-layer graph convolution over the extended reals, entry by entry.

  With x an N × D feature matrix, adj an N × N adjacency matrix, W1 a D × H matrix and W an H × O matrix, the network is
      hidden = max(adj · (x · W1), 0),      layer(W) = max(adj · (hidden · W), 0),
  every product a plain matrix product, that is a finite sum of products of entries, and the maximum taken entry by
  entry against zero.  Nothing here needs an algebraic law: a program that computes these same sums in the same
  nesting computes the same extended real, infinite entries included.  (N = 10000, D = 128, H = 32, O = 16.)
-/
import Idealize.ShloMosaic.PureOps.Ideal
import Idealize.ShloMosaic.Lib.ValueIdx

noncomputable section

namespace Cert.Gcn

open Idealize.ShloMosaic Idealize.ShloMosaic.ValueIdx

/-- Entry (n, l) of the first support x · W1. -/
def support1 (x : FVec Ideal ⟨2, ![10000, 128]⟩ .f32) (w1 : FVec Ideal ⟨2, ![128, 32]⟩ .f32) (n : Fin 10000) (l : Fin 32) : EReal :=
  ∑ d : Fin 128, x (ix2 n d) * w1 (ix2 d l)

/-- Entry (k, l) of the hidden layer max(adj · (x · W1), 0). -/
def hidden (x : FVec Ideal ⟨2, ![10000, 128]⟩ .f32) (adj : FVec Ideal ⟨2, ![10000, 10000]⟩ .f32)
    (w1 : FVec Ideal ⟨2, ![128, 32]⟩ .f32) (k : Fin 10000) (l : Fin 32) : EReal :=
  max (∑ n : Fin 10000, adj (ix2 k n) * support1 x w1 n l) 0

/-- Entry (k, j) of the second support hidden · W. -/
def support2 (x : FVec Ideal ⟨2, ![10000, 128]⟩ .f32) (adj : FVec Ideal ⟨2, ![10000, 10000]⟩ .f32)
    (w1 : FVec Ideal ⟨2, ![128, 32]⟩ .f32) (w : FVec Ideal ⟨2, ![32, 16]⟩ .f32) (k : Fin 10000) (j : Fin 16) : EReal :=
  ∑ l : Fin 32, hidden x adj w1 k l * w (ix2 l j)

/-- Entry (r, j) of the output layer max(adj · (hidden · W), 0). -/
def layerAt (x : FVec Ideal ⟨2, ![10000, 128]⟩ .f32) (adj : FVec Ideal ⟨2, ![10000, 10000]⟩ .f32)
    (w1 : FVec Ideal ⟨2, ![128, 32]⟩ .f32) (w : FVec Ideal ⟨2, ![32, 16]⟩ .f32) (r : Fin 10000) (j : Fin 16) : EReal :=
  max (∑ k : Fin 10000, adj (ix2 r k) * support2 x adj w1 w k j) 0

/-- The output layer as an array. -/
def layer (x : FVec Ideal ⟨2, ![10000, 128]⟩ .f32) (adj : FVec Ideal ⟨2, ![10000, 10000]⟩ .f32)
    (w1 : FVec Ideal ⟨2, ![128, 32]⟩ .f32) (w : FVec Ideal ⟨2, ![32, 16]⟩ .f32) : FVec Ideal ⟨2, ![10000, 16]⟩ .f32 :=
  fun y => layerAt x adj w1 w (y 0) (y 1)

theorem layer_apply (x : FVec Ideal ⟨2, ![10000, 128]⟩ .f32) (adj : FVec Ideal ⟨2, ![10000, 10000]⟩ .f32)
    (w1 : FVec Ideal ⟨2, ![128, 32]⟩ .f32) (w : FVec Ideal ⟨2, ![32, 16]⟩ .f32) (r : Fin 10000) (j : Fin 16) :
    layer x adj w1 w (ix2 r j) = layerAt x adj w1 w r j := rfl

end Cert.Gcn

end
-- ==== Proof.BlockValue.lean ====
/-
  The kernel's named contents, entry by entry, as the nested finite sums of the two-layer graph convolution over the
  extended reals.

  The adjacency window fetches at point t the row block t mod 25 and all columns, so entry (p, k) of its block is entry
  (400 · (t mod 25) + p, k) of the adjacency matrix.  The first support at (n, l) is Σ_d x(n, d) · W1(d, l).  Row k of
  the second support lies in slab k / 400 at row k % 400; that slab is max(A · (x · W1), 0) · [W2 | W3] with A the
  adjacency block of point k / 400, whose row k % 400 is row 400 · ((k / 400) mod 25) + k % 400 = k of the matrix
  (k < 10000), so entry (k, j) is Σ_l hidden(k, l) · [W2 | W3](l, j): for j < 16 the joined weights give W2(l, j), for
  16 ≤ j they give W3(l, j − 16).  The two output blocks of point t are the column halves of max(A_t · second support, 0):
  entry (p, q) of the first is the W2 layer at row 400 · (t mod 25) + p, column q, and of the second the W3 layer
  there.  Every step matches a sum with the same sum term by term; no algebraic law is used.
-/
import proofs.«123737_g71674414235792_cont_9to1c4b_416_14_alg».proof.Proof.Terms
import proofs.«123737_g71674414235792_cont_9to1c4b_416_14_alg».proof.Proof.PayloadAt
import proofs.«123737_g71674414235792_cont_9to1c4b_416_14_alg».proof.Proof.GcnSpec

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The adjacency matrix as the region finds it. -/
def adjArr (c : Dev nD) : Vec Ideal S10000x10000 .f32 := V m c main_arg1

/-- Row p of the block of point t is row 400 · (t mod 25) + p of the array (for the adjacency window at every point; for the
    output windows at the points of the second pass, where t mod 25 = t − 25). -/
def blkRow (t : Fin cfg0.N) (p : Fin 400) : Fin 10000 := ⟨400 * (t.val % 25) + p.val, by omega⟩

/-- The adjacency block of point t read at (p, k). -/
theorem adjBlk_at (c : Dev nD) (t : Fin cfg0.N) (p : Fin 400) (k : Fin 10000) :
    adjBlk m c t (ix2 p k) = adjArr m c (ix2 (blkRow t p) k) := by
  unfold adjBlk iblk adjArr
  rw [View.read_apply]
  show V m c main_arg1 (((cfg0.win 0).blk t).view.emb (ix2 p k)) = V m c main_arg1 (ix2 (blkRow t p) k)
  refine congrArg _ ?_
  obtain ⟨e0, e1⟩ := adj_index t
  funext a; apply Fin.ext
  match a with
  | ⟨0, _⟩ => show win0_0.index t (0 : Fin 2) * 400 + 1 * p.val = 400 * (t.val % 25) + p.val; omega
  | ⟨1, _⟩ => show win0_0.index t (1 : Fin 2) * 10000 + 1 * k.val = k.val; omega

/-- The first support at (n, l). -/
theorem sup1_at (c : Dev nD) (n : Fin 10000) (l : Fin 32) :
    sup1 m c (ix2 n l) = Cert.Gcn.support1 (xArr m c) (w1Arr m c) n l := by
  unfold sup1 Cert.Gcn.support1
  exact pay1_at _ _ n l

/-- Row k of the second support lies in slab k / 400 at row k % 400, and the adjacency block of that point starts at
    row 400 · ((k / 400) mod 25) = 400 · (k / 400) of the array: entry (k, j) is Σ_l hidden(k, l) · [W2 | W3](l, j). -/
theorem sup2_both (c : Dev nD) (k : Fin 10000) (j : Fin 32) :
    sup2 m c (ix2 k j) = ∑ l : Fin 32, Cert.Gcn.hidden (xArr m c) (adjArr m c) (w1Arr m c) k l * wBoth m c (ix2 l j) := by
  have hk : k.val < 10000 := k.isLt
  have hN : cfg0.N = 50 := N_0
  have hr : blkRow (⟨k.val / 400, by omega⟩ : Fin cfg0.N) (⟨k.val % 400, Nat.mod_lt _ (by decide)⟩ : Fin 400) = k :=
    Fin.ext (by show 400 * ((k.val / 400) % 25) + k.val % 400 = k.val; omega)
  show slabOf m c (⟨k.val / 400, by omega⟩ : Fin cfg0.N) (ix2 (⟨k.val % 400, Nat.mod_lt _ (by decide)⟩ : Fin 400) j) = _
  unfold slabOf Cert.Gcn.hidden
  rw [pay4_at]
  simp only [adjBlk_at, sup1_at, hr]

/-- Columns 0 … 15 of the second support are hidden · W2, -/
theorem sup2_left (c : Dev nD) (k : Fin 10000) (j : Fin 16) :
    sup2 m c (ix2 k (⟨j.val, by omega⟩ : Fin 32)) = Cert.Gcn.support2 (xArr m c) (adjArr m c) (w1Arr m c) (w2Arr m c) k j := by
  rw [sup2_both]
  unfold Cert.Gcn.support2 wBoth
  refine Finset.sum_congr rfl fun l _ => ?_
  rw [wCat_left]

/-- columns 16 … 31 are hidden · W3. -/
theorem sup2_right (c : Dev nD) (k : Fin 10000) (j : Fin 16) :
    sup2 m c (ix2 k (⟨j.val + 16, by omega⟩ : Fin 32)) = Cert.Gcn.support2 (xArr m c) (adjArr m c) (w1Arr m c) (w3Arr m c) k j := by
  rw [sup2_both]
  unfold Cert.Gcn.support2 wBoth
  refine Finset.sum_congr rfl fun l _ => ?_
  rw [wCat_right]

/-- The first output block of point t at (p, q) is the W2 layer at row blkRow t p, -/
theorem muBlk_at (c : Dev nD) (t : Fin cfg0.N) (p : Fin 400) (q : Fin 16) :
    muBlk m c t (ix2 p q) = Cert.Gcn.layerAt (xArr m c) (adjArr m c) (w1Arr m c) (w2Arr m c) (blkRow t p) q := by
  unfold muBlk Cert.Gcn.layerAt
  rw [pay6_at, pay5_at]
  simp only [adjBlk_at, sup2_left]

/-- the second the W3 layer. -/
theorem lvBlk_at (c : Dev nD) (t : Fin cfg0.N) (p : Fin 400) (q : Fin 16) :
    lvBlk m c t (ix2 p q) = Cert.Gcn.layerAt (xArr m c) (adjArr m c) (w1Arr m c) (w3Arr m c) (blkRow t p) q := by
  unfold lvBlk Cert.Gcn.layerAt
  rw [pay7_at, pay5_at]
  simp only [adjBlk_at, sup2_right]

end Cert.KernelIdeal.Hand

end
-- ==== Proof.Final.lean ====
/-
  The two output arrays after the whole run.

  The grid has 50 points; the points 25 … 49 form the second pass, and exactly there the two output blocks are
  written back.  At point t ≥ 25 the block is the 400 × 16 block with block index (t − 25, 0) of a 10000 × 16 array:
  entry (p, q) of the block lands at row 400·(t − 25) + p, column q, and t − 25 = t mod 25 on that range.  The block
  written back holds, entry by entry, the rows 400·(t mod 25) … 400·(t mod 25) + 399 of the output layer
      max(adj · (hidden · W), 0),      hidden = max(adj · (x · W1), 0),
  with W = W2 for the first output and W = W3 for the second.  Every index (r, j) of the array lies in the block of
  the point 25 + r / 400 (r / 400 ≤ 24 since r < 10000), so the 25 blocks tile the array and the array ends holding
  the whole layer.  Three steps: what each point of the second pass writes back, when an index of the array lies in
  a point's block, and the array that results.
-/
import proofs.«123737_g71674414235792_cont_9to1c4b_416_14_alg».proof.Proof.Data
import proofs.«123737_g71674414235792_cont_9to1c4b_416_14_alg».proof.Proof.BlockValue

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ)

/-- The grid has 50 points. -/
theorem second_pass_lt (t : Fin cfg0.N) : t.val < 50 := by
  have h := t.isLt
  have hN : cfg0.N = 50 := N_0
  omega

/-- What a point t ≥ 25 writes back through window 5: the 400 rows 400·(t − 25) … 400·(t − 25) + 399 of the layer.
    Entry (p, q) of the block sits at row (t − 25)·400 + p, column q of the array, and t − 25 = t mod 25 there. -/
theorem flushed5_eq (c : Dev nD) (t : Fin cfg0.N) (hf : (cfg0.win 5).flush t = true) :
    (dats (F := Ideal) m 0 c).flushed 5 t
      = ((cfg0.win 5).blk t).view.read (Elt Ideal) (Cert.Gcn.layer (xArr m c) (adjArr m c) (w1Arr m c) (w2Arr m c)) := by
  have ht : 25 ≤ t.val := of_decide_eq_true ((flush5_eq t).symm.trans hf)
  have hN : t.val < 50 := second_pass_lt t
  obtain ⟨e0, e1⟩ := out_index5 t ht
  show (cfg0.win 5).cut (grid0.coords t) ((dats (F := Ideal) m 0 c).after 5 t) = _
  rw [after5]
  show muBlk m c t = _
  funext j
  obtain ⟨p, q, rfl⟩ : ∃ (p : Fin 400) (q : Fin 16), j = ix2 p q := ⟨j 0, j 1, eq_ix2 j⟩
  rw [muBlk_at]
  have hemb : ((cfg0.win 5).blk t).view.emb (ix2 p q) = (ix2 (blkRow t p) q : S10000x16.Idx) := by
    funext a; apply Fin.ext
    match a with
    | ⟨0, _⟩ => show win0_5.index t (0 : Fin 2) * 400 + 1 * p.val = 400 * (t.val % 25) + p.val; omega
    | ⟨1, _⟩ => show win0_5.index t (1 : Fin 2) * 16 + 1 * q.val = q.val; omega
  show _ = Cert.Gcn.layer (xArr m c) (adjArr m c) (w1Arr m c) (w2Arr m c) (((cfg0.win 5).blk t).view.emb (ix2 p q))
  rw [hemb]
  rfl

/-- An index of the array is in point t's block of window 5 iff each coordinate is in the block's range on its axis. -/
theorem mem_blk5 (t : Fin cfg0.N) (i : S10000x16.Idx) :
    i ∈ ((cfg0.win 5).blk t).view.set ↔ ∀ a : Fin 2, win0_5.index t a * S400x16.size a ≤ (i a).val ∧ (i a).val < win0_5.index t a * S400x16.size a + S400x16.size a := by
  show i ∈ ((View.whole main_v0_0).slice (win0_5.rect t)).set ↔ _
  rw [View.set_slice_whole, Rect.mem_set_unit]
  exact Iff.rfl

/-- Every index (r, j) of the array is written back at some point of the second pass: the point 25 + r / 400,
    whose block holds the rows 400·(r / 400) … 400·(r / 400) + 399 and all 16 columns. -/
theorem cover5 (i : S10000x16.Idx) :
    ∃ t : Fin cfg0.N, (cfg0.win 5).flush t = true ∧ i ∈ ((cfg0.win 5).blk t).view.set := by
  have hi0 : (i 0).val < 10000 := (i 0).isLt
  have hi1 : (i 1).val < 16 := (i 1).isLt
  have hN : cfg0.N = 50 := N_0
  refine ⟨⟨25 + (i 0).val / 400, by omega⟩, ?_, ?_⟩
  · rw [flush5_eq]; exact decide_eq_true (Nat.le_add_right 25 _)
  · obtain ⟨e0, e1⟩ := out_index5 ⟨25 + (i 0).val / 400, by omega⟩ (Nat.le_add_right 25 _)
    rw [mem_blk5]
    intro a
    match a with
    | ⟨0, _⟩ =>
      show win0_5.index ⟨25 + (i 0).val / 400, _⟩ (0 : Fin 2) * 400 ≤ (i 0).val ∧ (i 0).val < win0_5.index ⟨25 + (i 0).val / 400, _⟩ (0 : Fin 2) * 400 + 400
      rw [e0]
      show (25 + (i 0).val / 400 - 25) * 400 ≤ (i 0).val ∧ (i 0).val < (25 + (i 0).val / 400 - 25) * 400 + 400
      omega
    | ⟨1, _⟩ =>
      show win0_5.index ⟨25 + (i 0).val / 400, _⟩ (1 : Fin 2) * 16 ≤ (i 1).val ∧ (i 1).val < win0_5.index ⟨25 + (i 0).val / 400, _⟩ (1 : Fin 2) * 16 + 16
      rw [e1]
      omega

/-- What a point t ≥ 25 writes back through window 6: the 400 rows 400·(t − 25) … 400·(t − 25) + 399 of the layer.
    Entry (p, q) of the block sits at row (t − 25)·400 + p, column q of the array, and t − 25 = t mod 25 there. -/
theorem flushed6_eq (c : Dev nD) (t : Fin cfg0.N) (hf : (cfg0.win 6).flush t = true) :
    (dats (F := Ideal) m 0 c).flushed 6 t
      = ((cfg0.win 6).blk t).view.read (Elt Ideal) (Cert.Gcn.layer (xArr m c) (adjArr m c) (w1Arr m c) (w3Arr m c)) := by
  have ht : 25 ≤ t.val := of_decide_eq_true ((flush6_eq t).symm.trans hf)
  have hN : t.val < 50 := second_pass_lt t
  obtain ⟨e0, e1⟩ := out_index6 t ht
  show (cfg0.win 6).cut (grid0.coords t) ((dats (F := Ideal) m 0 c).after 6 t) = _
  rw [after6]
  show lvBlk m c t = _
  funext j
  obtain ⟨p, q, rfl⟩ : ∃ (p : Fin 400) (q : Fin 16), j = ix2 p q := ⟨j 0, j 1, eq_ix2 j⟩
  rw [lvBlk_at]
  have hemb : ((cfg0.win 6).blk t).view.emb (ix2 p q) = (ix2 (blkRow t p) q : S10000x16.Idx) := by
    funext a; apply Fin.ext
    match a with
    | ⟨0, _⟩ => show win0_6.index t (0 : Fin 2) * 400 + 1 * p.val = 400 * (t.val % 25) + p.val; omega
    | ⟨1, _⟩ => show win0_6.index t (1 : Fin 2) * 16 + 1 * q.val = q.val; omega
  show _ = Cert.Gcn.layer (xArr m c) (adjArr m c) (w1Arr m c) (w3Arr m c) (((cfg0.win 6).blk t).view.emb (ix2 p q))
  rw [hemb]
  rfl

/-- An index of the array is in point t's block of window 6 iff each coordinate is in the block's range on its axis. -/
theorem mem_blk6 (t : Fin cfg0.N) (i : S10000x16.Idx) :
    i ∈ ((cfg0.win 6).blk t).view.set ↔ ∀ a : Fin 2, win0_6.index t a * S400x16.size a ≤ (i a).val ∧ (i a).val < win0_6.index t a * S400x16.size a + S400x16.size a := by
  show i ∈ ((View.whole main_v0_1).slice (win0_6.rect t)).set ↔ _
  rw [View.set_slice_whole, Rect.mem_set_unit]
  exact Iff.rfl

/-- Every index (r, j) of the array is written back at some point of the second pass: the point 25 + r / 400,
    whose block holds the rows 400·(r / 400) … 400·(r / 400) + 399 and all 16 columns. -/
theorem cover6 (i : S10000x16.Idx) :
    ∃ t : Fin cfg0.N, (cfg0.win 6).flush t = true ∧ i ∈ ((cfg0.win 6).blk t).view.set := by
  have hi0 : (i 0).val < 10000 := (i 0).isLt
  have hi1 : (i 1).val < 16 := (i 1).isLt
  have hN : cfg0.N = 50 := N_0
  refine ⟨⟨25 + (i 0).val / 400, by omega⟩, ?_, ?_⟩
  · rw [flush6_eq]; exact decide_eq_true (Nat.le_add_right 25 _)
  · obtain ⟨e0, e1⟩ := out_index6 ⟨25 + (i 0).val / 400, by omega⟩ (Nat.le_add_right 25 _)
    rw [mem_blk6]
    intro a
    match a with
    | ⟨0, _⟩ =>
      show win0_6.index ⟨25 + (i 0).val / 400, _⟩ (0 : Fin 2) * 400 ≤ (i 0).val ∧ (i 0).val < win0_6.index ⟨25 + (i 0).val / 400, _⟩ (0 : Fin 2) * 400 + 400
      rw [e0]
      show (25 + (i 0).val / 400 - 25) * 400 ≤ (i 0).val ∧ (i 0).val < (25 + (i 0).val / 400 - 25) * 400 + 400
      omega
    | ⟨1, _⟩ =>
      show win0_6.index ⟨25 + (i 0).val / 400, _⟩ (1 : Fin 2) * 16 ≤ (i 1).val ∧ (i 1).val < win0_6.index ⟨25 + (i 0).val / 400, _⟩ (1 : Fin 2) * 16 + 16
      rw [e1]
      omega

/-- After the 25 write-backs of the second pass the first output array is the W2 layer, -/
theorem final5 (c : Dev nD) :
    (dats (F := Ideal) m 0 c).arrAt 5 cfg0.N = Cert.Gcn.layer (xArr m c) (adjArr m c) (w1Arr m c) (w2Arr m c) := by
  exact (dats (F := Ideal) m 0 c).arrAt_eq_of_cover 5 (Cert.Gcn.layer (xArr m c) (adjArr m c) (w1Arr m c) (w2Arr m c))
    (fun t hf => flushed5_eq m c t hf) cover5

/-- and the second the W3 layer. -/
theorem final6 (c : Dev nD) :
    (dats (F := Ideal) m 0 c).arrAt 6 cfg0.N = Cert.Gcn.layer (xArr m c) (adjArr m c) (w1Arr m c) (w3Arr m c) := by
  exact (dats (F := Ideal) m 0 c).arrAt_eq_of_cover 6 (Cert.Gcn.layer (xArr m c) (adjArr m c) (w1Arr m c) (w3Arr m c))
    (fun t hf => flushed6_eq m c t hf) cover6

end Cert.KernelIdeal.Hand

end
-- ==== Proof.KernelValue.lean ====
/-
  The idealized kernel's run with its results named: every weakly fair execution terminates; the first result array ends
  as the layer max(adj · (max(adj · (x · W1), 0) · W2), 0), the second as the same layer with W3, each entry by entry
  over the extended reals; the five argument arrays end as launched.
-/
import proofs.«123737_g71674414235792_cont_9to1c4b_416_14_alg».proof.Proof.Body
import proofs.«123737_g71674414235792_cont_9to1c4b_416_14_alg».proof.Proof.Final

set_option maxRecDepth 16384

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ) (ρ : Dev nD → PrngReg)

theorem run_named : θ_run defs (onTc (τ := τ) (main (F := Ideal))) ⟨m, fun _ => 0, ρ⟩ (fun r => ∀ c : Dev nD,
      r.2.mem ((c.tc : Thread nD τ).loc main_v0_0)
        = Cert.Gcn.layer (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v0_1)
        = Cert.Gcn.layer (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 5).trans (final5 m c), ((h c).1 6).trans (final6 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Hand

end
-- ==== Proof.RefSpec.lean ====
/-
  The reference network's output layer, read entry by entry over the extended reals.

  The reference computes, in this order,
      v0 = x · W1,   v1 = adj · v0,   v2 = max(v1, 0),   v3 = v2 · W,   v4 = adj · v3,   result = max(v4, 0),
  where every product is a plain matrix product (the left operand contracted on its axis 1, the right on its axis 0)
  and every zero is the scalar constant with the all-zero word, spread over the whole array.

  Entry (i, j) of a plain product of l by r is Σₖ l(i, k) · r(k, j); the all-zero word is the extended real 0; the
  maximum of two arrays is taken entry by entry.  Reading the result at (r, j) and then each operand at the entries
  the sums ask for gives
      result(r, j) = max(Σₖ adj(r, k) · v3(k, j), 0),        v3(k, j) = Σₗ v2(k, l) · W(l, j),
      v2(k, l)     = max(Σₙ adj(k, n) · v0(n, l), 0),        v0(n, l) = Σ_d x(n, d) · W1(d, l),
  which are, sum for sum and in the same nesting, the entries of the two-layer graph convolution.  No algebraic law is
  used: the two sides are the same nested sums, so they agree at every extended real, infinite entries included.
-/
import proofs.«123737_g71674414235792_cont_9to1c4b_416_14_alg».proof.Defs
import proofs.«123737_g71674414235792_cont_9to1c4b_416_14_alg».proof.Proof.Gen.ReferenceIdeal.Run
import proofs.«123737_g71674414235792_cont_9to1c4b_416_14_alg».proof.Proof.Gen.ReferenceIdeal.Read
import proofs.«123737_g71674414235792_cont_9to1c4b_416_14_alg».proof.Proof.GcnSpec
import proofs.«123737_g71674414235792_cont_9to1c4b_416_14_alg».proof.Proof.LibDotPlain
import Idealize.ShloMosaic.PureOps.Ideal.Laws

set_option maxRecDepth 16384

noncomputable section

namespace Cert.ReferenceIdeal.RefValue

open Cert.ReferenceIdeal Cert.ReferenceIdeal.Gen
open Idealize.ShloMosaic Idealize.ShloMosaic.ValueIdx

/-! ### Where each product reads its operands

For the output entry (i, j) and the contraction position k, a plain product reads its left operand at (i, k) and its
right operand at (k, j).  Each equation below compares two rank-2 indices coordinate by coordinate. -/

/-- x · W1 at (n, l), position d: the left operand is read at (n, d). -/
theorem lidx_v0 (n : Fin 10000) (l : Fin 32) (d : Fin 128) : Read.lidx_main_v0 (ix2 n l) d = ix2 n d :=
  funext fun a => by match a with | ⟨0, _⟩ => rfl | ⟨1, _⟩ => rfl

/-- x · W1 at (n, l), position d: the right operand is read at (d, l). -/
theorem ridx_v0 (n : Fin 10000) (l : Fin 32) (d : Fin 128) : Read.ridx_main_v0 (ix2 n l) d = ix2 d l :=
  funext fun a => by match a with | ⟨0, _⟩ => rfl | ⟨1, _⟩ => rfl

/-- adj · v0 at (k, l), position n: the left operand is read at (k, n). -/
theorem lidx_v1 (k : Fin 10000) (l : Fin 32) (n : Fin 10000) : Read.lidx_main_v1 (ix2 k l) n = ix2 k n :=
  funext fun a => by match a with | ⟨0, _⟩ => rfl | ⟨1, _⟩ => rfl

/-- adj · v0 at (k, l), position n: the right operand is read at (n, l). -/
theorem ridx_v1 (k : Fin 10000) (l : Fin 32) (n : Fin 10000) : Read.ridx_main_v1 (ix2 k l) n = ix2 n l :=
  funext fun a => by match a with | ⟨0, _⟩ => rfl | ⟨1, _⟩ => rfl

/-- v2 · W at (k, j), position l: the left operand is read at (k, l). -/
theorem lidx_v3 (k : Fin 10000) (j : Fin 16) (l : Fin 32) : Read.lidx_main_v3 (ix2 k j) l = ix2 k l :=
  funext fun a => by match a with | ⟨0, _⟩ => rfl | ⟨1, _⟩ => rfl

/-- v2 · W at (k, j), position l: the right operand is read at (l, j). -/
theorem ridx_v3 (k : Fin 10000) (j : Fin 16) (l : Fin 32) : Read.ridx_main_v3 (ix2 k j) l = ix2 l j :=
  funext fun a => by match a with | ⟨0, _⟩ => rfl | ⟨1, _⟩ => rfl

/-- adj · v3 at (r, j), position k: the left operand is read at (r, k). -/
theorem lidx_v4 (r : Fin 10000) (j : Fin 16) (k : Fin 10000) : Read.lidx_main_v4 (ix2 r j) k = ix2 r k :=
  funext fun a => by match a with | ⟨0, _⟩ => rfl | ⟨1, _⟩ => rfl

/-- adj · v3 at (r, j), position k: the right operand is read at (k, j). -/
theorem ridx_v4 (r : Fin 10000) (j : Fin 16) (k : Fin 10000) : Read.ridx_main_v4 (ix2 r j) k = ix2 k j :=
  funext fun a => by match a with | ⟨0, _⟩ => rfl | ⟨1, _⟩ => rfl

/-! ### The two zero arrays

The scalar constant carries the all-zero word, which is the extended real 0; spreading a scalar over an array puts
that same value at every entry. -/

/-- Every entry of the first zero array is 0. -/
theorem zero32_at (i : S10000x32.Idx) : Read.val_main_call0_v0 (F := Ideal) i = (0 : EReal) := by
  rw [Read.val_main_call0_v0_apply, Read.val_main_call0_cst_apply]
  exact Ideal.ofBits_zero_f32

/-- Every entry of the second zero array is 0. -/
theorem zero16_at (i : S10000x16.Idx) : Read.val_main_call1_v0 (F := Ideal) i = (0 : EReal) := by
  rw [Read.val_main_call1_v0_apply, Read.val_main_call1_cst_apply]
  exact Ideal.ofBits_zero_f32

/-! ### The stages, innermost first -/

/-- v0(n, l) = Σ_d x(n, d) · W1(d, l): the first support. -/
theorem v0_at (x : FVec Ideal S10000x128 .f32) (w1 : FVec Ideal S128x32 .f32) (n : Fin 10000) (l : Fin 32) :
    Read.val_main_v0 (F := Ideal) x w1 (ix2 n l) = Cert.Gcn.support1 x w1 n l := by
  rw [Read.val_main_v0_apply]
  unfold Cert.Gcn.support1
  refine Finset.sum_congr rfl fun d _ => ?_
  rw [lidx_v0, ridx_v0]

/-- v2(k, l) = max(Σₙ adj(k, n) · v0(n, l), 0): the hidden layer. -/
theorem v2_at (x : FVec Ideal S10000x128 .f32) (adj : FVec Ideal S10000x10000 .f32) (w1 : FVec Ideal S128x32 .f32)
    (k : Fin 10000) (l : Fin 32) :
    Read.val_main_v2 (F := Ideal) x adj w1 (ix2 k l) = Cert.Gcn.hidden x adj w1 k l := by
  rw [Read.val_main_v2_apply, Ideal.maximumf_def, zero32_at, Read.val_main_v1_apply]
  unfold Cert.Gcn.hidden
  refine congrArg (fun s : EReal => max s 0) (Finset.sum_congr rfl fun n _ => ?_)
  rw [lidx_v1, ridx_v1, v0_at]

/-- v3(k, j) = Σₗ v2(k, l) · W(l, j): the second support. -/
theorem v3_at (x : FVec Ideal S10000x128 .f32) (adj : FVec Ideal S10000x10000 .f32) (w1 : FVec Ideal S128x32 .f32)
    (w : FVec Ideal S32x16 .f32) (k : Fin 10000) (j : Fin 16) :
    Read.val_main_v3 (F := Ideal) x adj w1 w (ix2 k j) = Cert.Gcn.support2 x adj w1 w k j := by
  rw [Read.val_main_v3_apply]
  unfold Cert.Gcn.support2
  refine Finset.sum_congr rfl fun l _ => ?_
  rw [lidx_v3, ridx_v3, v2_at]

/-- result(r, j) = max(Σₖ adj(r, k) · v3(k, j), 0): the output layer. -/
theorem v5_at (x : FVec Ideal S10000x128 .f32) (adj : FVec Ideal S10000x10000 .f32) (w1 : FVec Ideal S128x32 .f32)
    (w : FVec Ideal S32x16 .f32) (r : Fin 10000) (j : Fin 16) :
    Read.val_main_v5 (F := Ideal) x adj w1 w (ix2 r j) = Cert.Gcn.layerAt x adj w1 w r j := by
  rw [Read.val_main_v5_apply, Ideal.maximumf_def, zero16_at, Read.val_main_v4_apply]
  unfold Cert.Gcn.layerAt
  refine congrArg (fun s : EReal => max s 0) (Finset.sum_congr rfl fun k _ => ?_)
  rw [lidx_v4, ridx_v4, v3_at]

/-- The reference's composed term for one output layer, over the extended reals, is the layer entry by entry:
    max(adj · (max(adj · (x · W1), 0) · W), 0). -/
theorem ref_layer (x : FVec Ideal S10000x128 .f32) (adj : FVec Ideal S10000x10000 .f32) (w1 : FVec Ideal S128x32 .f32)
    (w : FVec Ideal S32x16 .f32) :
    maximumf (F := Ideal)
      (Host.dotGeneral dot_S10000x10000_S10000x16_S10000x16_1_0_0_1_n_n none adj
        (Host.dotGeneral dot_S10000x32_S32x16_S10000x16_1_0_0_1_n_n none
          (maximumf
            (Host.dotGeneral dot_S10000x10000_S10000x32_S10000x32_1_0_0_1_n_n none adj
              (Host.dotGeneral dot_S10000x128_S128x32_S10000x32_1_0_0_1_n_n none x w1))
            (broadcastInDim S10000x32 ![] bcast_S_S10000x32 (constant (F := Ideal) S_ .f32 0x00000000#32)))
          w))
      (broadcastInDim S10000x16 ![] bcast_S_S10000x16 (constant (F := Ideal) S_ .f32 0x00000000#32))
    = Cert.Gcn.layer x adj w1 w := by
  refine (Read.val_main_v5_eq (F := Ideal) x adj w1 w).trans ?_
  funext y
  obtain ⟨r, j, rfl⟩ : ∃ (r : Fin 10000) (j : Fin 16), y = ix2 r j := ⟨y 0, y 1, eq_ix2 y⟩
  rw [v5_at, Cert.Gcn.layer_apply]

end Cert.ReferenceIdeal.RefValue

end
-- ==== Proof.lean ====
/-
  A two-layer graph convolution with a dense adjacency matrix, computed by one kernel in two passes over the adjacency
  matrix, against the plain reference
      hidden = max(adj · (x · W1), 0),   mu = max(adj · (hidden · W2), 0),   logvar = max(adj · (hidden · W3), 0).
  The kernel's first pass forms hidden row block by row block and at once multiplies each block by [W2 | W3], filling
  the 10000 × 32 second support; its second pass multiplies each adjacency row block by that support, takes the
  maximum with zero and writes the two column halves as the two results.  Over the extended reals both programs are the
  same nested finite sums, entry by entry, so no algebraic law and no finiteness of the inputs is used.
  The three frames: both kernel programs by the body's invariant point by point (the same text at both readings of
  the floats), the reference by its run.  The idealization rewrote nothing.
-/
import proofs.«123737_g71674414235792_cont_9to1c4b_416_14_alg».proof.Defs
import proofs.«123737_g71674414235792_cont_9to1c4b_416_14_alg».proof.Proof.Gen.Kernel
import proofs.«123737_g71674414235792_cont_9to1c4b_416_14_alg».proof.Proof.Gen.KernelIdeal
import proofs.«123737_g71674414235792_cont_9to1c4b_416_14_alg».proof.Proof.Gen.ReferenceIdeal
import proofs.«123737_g71674414235792_cont_9to1c4b_416_14_alg».proof.Proof.Gen.Pre_finite_inputs
import proofs.«123737_g71674414235792_cont_9to1c4b_416_14_alg».proof.Proof.Gen.ReferenceIdeal.Run
import proofs.«123737_g71674414235792_cont_9to1c4b_416_14_alg».proof.Proof.Bits.Body
import proofs.«123737_g71674414235792_cont_9to1c4b_416_14_alg».proof.Proof.KernelValue
import proofs.«123737_g71674414235792_cont_9to1c4b_416_14_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2) (Cert.ReferenceIdeal.Value.run (F := Ideal) m ρ)

/-- Both programs end with the same three result arrays: the W2 layer twice and the W3 layer. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, _, _, (θ_run Cert.KernelIdeal.defs _ _).mono (fun _ h c => ⟨(h c).1, (h c).1, (h c).2.1, (h c).2.2⟩) (Cert.KernelIdeal.Hand.run_named m ρ), ?_⟩
  refine (θ_run Cert.ReferenceIdeal.defs _ _).mono (fun _ h c => ⟨?_, ?_, ?_, (h c).2.2.2⟩) (Cert.ReferenceIdeal.Value.run (F := Ideal) m' ρ')
  · rw [(h c).1, Cert.ReferenceIdeal.RefValue.ref_layer, (hagree c).1, (hagree c).2.1, (hagree c).2.2.1, (hagree c).2.2.2.1]
  · rw [(h c).2.1, Cert.ReferenceIdeal.RefValue.ref_layer, (hagree c).1, (hagree c).2.1, (hagree c).2.2.1, (hagree c).2.2.2.1]
  · rw [(h c).2.2.1, Cert.ReferenceIdeal.RefValue.ref_layer, (hagree c).1, (hagree c).2.1, (hagree c).2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
